-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S100000x512 : Shape := ⟨2, ![100000, 512]⟩
abbrev S512x100000 : Shape := ⟨2, ![512, 100000]⟩
abbrev S100000 : Shape := ⟨1, ![100000]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512x100000 : S_.BroadcastsInDim S512x100000 (![] : Fin 0 → Fin S512x100000.rank)
  reducesTo_S512x100000_S_d0_1 : S512x100000.ReducesTo [0, 1] S_
  bcast_S_S100000 : S_.BroadcastsInDim S100000 (![] : Fin 0 → Fin S100000.rank)
  reducesTo_S100000_S_d0 : S100000.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg1 : IVec S1024 32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_c_6 : IVec S_ 32 := constantI S_ 32 0#32
  let main_v19 : IVec S1024 32 := broadcastInDim S1024 ![] bcast_S_S1024 main_c_6
  let main_v20 : IVec S1024 1 := cmpi .sge main_arg1 main_v19
  let main_c_7 : IVec S_ 1 := constantI S_ 1 1#1
  let main_v21 : IVec S_ 1 := (fun x v => Host.reduce IntOp.andi x v reducesTo_S1024_S_d0 h_S_) main_v20 main_c_7
  let main_v22 : IVec S_ 1 := andi main_v18 main_v21
  let main_c_8 : IVec S_ 32 := constantI S_ 32 100000#32
  let main_v23 : IVec S1024 32 := broadcastInDim S1024 ![] bcast_S_S1024 main_c_8
  let main_v24 : IVec S1024 1 := cmpi .slt main_arg1 main_v23
  let main_c_9 : IVec S_ 1 := constantI S_ 1 1#1
  let main_v25 : IVec S_ 1 := (fun x v => Host.reduce IntOp.andi x v reducesTo_S1024_S_d0 h_S_) main_v24 main_c_9
  let main_v26 : IVec S_ 1 := andi main_v22 main_v25
  main_v26

def fn {F : FTy → Type} [FloatOps F] (main_arg0 : FVec F S1024x512 .f32) (main_arg1 : IVec S1024 32) (main_arg2 : FVec F S100000x512 .f32) (main_arg3 : FVec F S512x100000 .f32) (main_arg4 : FVec F S100000 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S512x100000 .f32 := Host.absf main_arg3
  let main_cst_2 : FVec F S_ .f32 := constant S_ .f32 0x7F800000#32
  let main_v10 : FVec F S512x100000 .f32 := broadcastInDim S512x100000 ![] bcast_S_S512x100000 main_cst_2
  let main_v11 : IVec S512x100000 1 := cmpf .olt main_v9 main_v10
  let main_c_3 : IVec S_ 1 := constantI S_ 1 1#1
  let main_v12 : IVec S_ 1 := (fun x v => Host.reduce IntOp.andi x v reducesTo_S512x100000_S_d0_1 h_S_) main_v11 main_c_3
  let main_v13 : IVec S_ 1 := andi main_v8 main_v12
  let main_v14 : FVec F S100000 .f32 := Host.absf main_arg4
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg1 main_v13 main_v16
-- ==== Kernel.lean ====
abbrev S1024x512 : Shape := ⟨2, ![1024, 512]⟩
abbrev S1024 : Shape := ⟨1, ![1024]⟩
abbrev S100000x512 : Shape := ⟨2, ![100000, 512]⟩
abbrev S512x100000 : Shape := ⟨2, ![512, 100000]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1x1024 : Shape := ⟨2, ![1, 1024]⟩
abbrev S4000x512 : Shape := ⟨2, ![4000, 512]⟩
abbrev S4000x1 : Shape := ⟨2, ![4000, 1]⟩
abbrev S4000x1024 : Shape := ⟨2, ![4000, 1024]⟩
abbrev S1024x100000 : Shape := ⟨2, ![1024, 100000]⟩
abbrev S512x2048 : Shape := ⟨2, ![512, 2048]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 41
  | .vmem => 13
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S512x100000, .f32⟩
  | .hbm, ⟨4, _⟩ => ⟨S100000, .f32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S1x1, .i32⟩
  | .hbm, ⟨18, _⟩ => ⟨S1024x1, .i32⟩
  | .hbm, ⟨19, _⟩ => ⟨S1024x1, .i1⟩
  | .hbm, ⟨20, _⟩ => ⟨S1024x1, .i1⟩
  | .hbm, ⟨21, _⟩ => ⟨S_, .i1⟩
  | .hbm, ⟨22, _⟩ => ⟨S1024, .i1⟩
  | .hbm, ⟨23, _⟩ => ⟨S1024x512, .f32⟩
  | .hbm, ⟨24, _⟩ => ⟨S1024x512, .i1⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x1024, .i32⟩
  | .hbm, ⟨39, _⟩ => ⟨S100000x512, .f32⟩
  | .hbm, ⟨40, _⟩ => ⟨S1024x100000, .f32⟩
  | .local _ .vmem, ⟨0, _⟩ => ⟨S1x1024, .i32⟩
  | .local _ .vmem, ⟨1, _⟩ => ⟨S1024x512, .f32⟩
  | .local _ .vmem, ⟨2, _⟩ => ⟨S4000x512, .f32⟩
  | .local _ .vmem, ⟨3, _⟩ => ⟨S4000x512, .f32⟩
  | .local _ .vmem, ⟨4, _⟩ => ⟨S4000x512, .f32⟩
  | .local _ .vmem, ⟨5, _⟩ => ⟨S4000x512, .f32⟩
  | .local _ .vmem, ⟨6, _⟩ => ⟨S1024x512, .f32⟩
  | .local _ .vmem, ⟨7, _⟩ => ⟨S512x2048, .f32⟩
  | .local _ .vmem, ⟨8, _⟩ => ⟨S512x2048, .f32⟩
  | .local _ .vmem, ⟨9, _⟩ => ⟨S2048, .f32⟩
  | .local _ .vmem, ⟨10, _⟩ => ⟨S2048, .f32⟩
  | .local _ .vmem, ⟨11, _⟩ => ⟨S1024x2048, .f32⟩
  | .local _ .vmem, ⟨12, _⟩ => ⟨S1024x2048, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst_0 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x512_0 : S1024.BroadcastsInDim S1024x512 (![0] : Fin 1 → Fin S1024x512.rank)
  bcast_S_S1024x512 : S_.BroadcastsInDim S1024x512 (![] : Fin 0 → Fin S1024x512.rank)
  reducesTo_S1024x512_S_d0_1 : S1024x512.ReducesTo [0, 1] S_
  shapeCasts_S1024_S1x1024 : S1024.ShapeCasts S1x1024
  iota_S4000x1_d0_w32 : S4000x1.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S4000x1_S4000x1024 : S4000x1.Broadcasts S4000x1024
  broadcasts_S1x1024_S4000x1024 : S1x1024.Broadcasts S4000x1024
  natLt_1_32 : 1 < 32
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S4000x512_S4000x512_0_0 : ∀ a, (![0, 0] : Fin 2 → Nat) a + S4000x512.size a ≤ S4000x512.size a
  h_S4000x512 : 0 < S4000x512.numel
  inb_S512x2048_S512x2048_0_0 : ∀ a, (![0, 0] : Fin 2 → Nat) a + S512x2048.size a ≤ S512x2048.size a
  h_S512x2048 : 0 < S512x2048.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  gather_S100000x512_S1024x1_S1024x512_1_0_n_n_0_1_1512_wf : GatherDims.WF S100000x512 S1024x1 S1024x512 [1] [0] [] [0] [] 1 ![1, 512]
  dot_S4000x1024_S1024x512_S4000x512_1_0_0_1_n_n_wf : DotDims.WF S4000x1024 S1024x512 S4000x512 [1] [0] [0] [1] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .i32 = 32 ∨ (Rect.block (s := S1x1024) S1x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x512.size a ≤ S100000x512.size a
  hwx0_2 : ∀ i : grid0.Coords, EltTy.bits .f32 = 32 ∨ (Rect.block (s := S100000x512) S4000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x512.size a ≤ S100000x512.size a
  hwx0_3 : ∀ i : grid0.Coords, EltTy.bits .f32 = 32 ∨ (Rect.block (s := S100000x512) S4000x512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x512.size a
  hwx1_0 : ∀ i : grid1.Coords, EltTy.bits .f32 = 32 ∨ (Rect.block (s := S1024x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S512x2048.size a < S512x100000.size a
  hwx1_1 : ∀ i : grid1.Coords, EltTy.bits .f32 = 32 ∨ (Rect.unit (s := S512x100000) (fun a => cc1_transform_1 i a * S512x2048.size a) (fun a => (Pipeline.Clip.of (cc1_transform_1 i a) (S512x2048.size a) (S512x100000.size a)).extent (S512x2048.size a)) fun a => Pipeline.Clip.inb (Pipeline.Clip.ok_of (hstart1_1 i a))).WholeWords (EltTy.packing .f32)
  hwxs1_1 : ∀ i : grid1.Coords, EltTy.bits .f32 = 32 ∨ (Rect.unit (s := S512x2048) (fun _ => 0) (fun a => (Pipeline.Clip.of (cc1_transform_1 i a) (S512x2048.size a) (S512x100000.size a)).extent (S512x2048.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S2048.size a < S100000.size a
  hwx1_2 : ∀ i : grid1.Coords, EltTy.bits .f32 = 32 ∨ (Rect.unit (s := S100000) (fun a => cc1_transform_2 i a * S2048.size a) (fun a => (Pipeline.Clip.of (cc1_transform_2 i a) (S2048.size a) (S100000.size a)).extent (S2048.size a)) fun a => Pipeline.Clip.inb (Pipeline.Clip.ok_of (hstart1_2 i a))).WholeWords (EltTy.packing .f32)
  hwxs1_2 : ∀ i : grid1.Coords, EltTy.bits .f32 = 32 ∨ (Rect.unit (s := S2048) (fun _ => 0) (fun a => (Pipeline.Clip.of (cc1_transform_2 i a) (S2048.size a) (S100000.size a)).extent (S2048.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x2048.size a < S1024x100000.size a
  hwx1_3 : ∀ i : grid1.Coords, EltTy.bits .f32 = 32 ∨ (Rect.unit (s := S1024x100000) (fun a => cc1_transform_3 i a * S1024x2048.size a) (fun a => (Pipeline.Clip.of (cc1_transform_3 i a) (S1024x2048.size a) (S1024x100000.size a)).extent (S1024x2048.size a)) fun a => Pipeline.Clip.inb (Pipeline.Clip.ok_of (hstart1_3 i a))).WholeWords (EltTy.packing .f32)
  hwxs1_3 : ∀ i : grid1.Coords, EltTy.bits .f32 = 32 ∨ (Rect.unit (s := S1024x2048) (fun _ => 0) (fun a => (Pipeline.Clip.of (cc1_transform_3 i a) (S1024x2048.size a) (S1024x100000.size a)).extent (S1024x2048.size a)) fun a => (Nat.zero_add _).trans_le (Pipeline.Clip.extent_le (Pipeline.Clip.ok_of (hstart1_3 i a)))).WholeWords (EltTy.packing .f32)

variable [Facts₀]

def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf
def dot_S4000x1024_S1024x512_S4000x512_1_0_0_1_n_n : DotDims S4000x1024 S1024x512 S4000x512 where
  lhsContracting := [1]
  rhsContracting := [0]
  lhsNonContracting := [0]
  rhsNonContracting := [1]
  lhsBatch := []
  rhsBatch := []
  wf := dot_S4000x1024_S1024x512_S4000x512_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v8) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg3) S512x2048.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_arg4) S2048.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v10) S1024x2048.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x512 : Shape := ⟨2, ![1024, 512]⟩
abbrev S1024 : Shape := ⟨1, ![1024]⟩
abbrev S100000x512 : Shape := ⟨2, ![100000, 512]⟩
abbrev S512x100000 : Shape := ⟨2, ![512, 100000]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x100000 : Shape := ⟨2, ![1024, 100000]⟩
abbrev S1x100000 : Shape := ⟨2, ![1, 100000]⟩

abbrev nBuf : Space → Nat
  | .hbm => 52
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S512x100000, .f32⟩
  | .hbm, ⟨4, _⟩ => ⟨S100000, .f32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S1x1, .i32⟩
  | .hbm, ⟨18, _⟩ => ⟨S1024x1, .i32⟩
  | .hbm, ⟨19, _⟩ => ⟨S1024x1, .i1⟩
  | .hbm, ⟨20, _⟩ => ⟨S1024x1, .i1⟩
  | .hbm, ⟨21, _⟩ => ⟨S_, .i1⟩
  | .hbm, ⟨22, _⟩ => ⟨S1024, .i1⟩
  | .hbm, ⟨23, _⟩ => ⟨S1024x512, .f32⟩
  | .hbm, ⟨24, _⟩ => ⟨S1024x512, .i1⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S1024x1, .i32⟩
  | .hbm, ⟨41, _⟩ => ⟨S100000x512, .f32⟩
  | .hbm, ⟨42, _⟩ => ⟨S1024x512, .f32⟩
  | .hbm, ⟨43, _⟩ => ⟨S1024x512, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024x100000, .f32⟩
  | .hbm, ⟨49, _⟩ => ⟨S1x100000, .f32⟩
  | .hbm, ⟨50, _⟩ => ⟨S1024x100000, .f32⟩
  | .hbm, ⟨51, _⟩ => ⟨S1024x100000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_c : Ref sig .tc := ⟨.hbm, 33, rfl⟩
abbrev main_v5 : Ref sig .tc := ⟨.hbm, 34, rfl⟩
abbrev main_v6 : Ref sig .tc := ⟨.hbm, 35, rfl⟩
abbrev main_c_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_1 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x512_0 : S1024.BroadcastsInDim S1024x512 (![0] : Fin 1 → Fin S1024x512.rank)
  bcast_S_S1024x512 : S_.BroadcastsInDim S1024x512 (![] : Fin 0 → Fin S1024x512.rank)
  reducesTo_S1024x512_S_d0_1 : S1024x512.ReducesTo [0, 1] S_
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x512_S1024x1_S1024x512_1_0_n_n_0_1_1512_wf : GatherDims.WF S100000x512 S1024x1 S1024x512 [1] [0] [] [0] [] 1 ![1, 512]
  scatter_S100000x512_S1024x1_S1024x512_1_0_0_1_wf : ScatterDims.WF S100000x512 S1024x1 S1024x512 [1] [0] [0] 1
  dot_S1024x512_S512x100000_S1024x100000_1_0_0_1_n_n_wf : DotDims.WF S1024x512 S512x100000 S1024x100000 [1] [0] [0] [1] [] []

variable [Facts₀]

def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf
def scatter_S100000x512_S1024x1_S1024x512_1_0_0_1 : ScatterDims S100000x512 S1024x1 S1024x512 where
  updateWindowDims := [1]
  insertedWindowDims := [0]
  scatterDimsToOperandDims := [0]
  indexVectorDim := 1
  wf := scatter_S100000x512_S1024x1_S1024x512_1_0_0_1_wf
def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf

class Facts : Prop extends Facts₀ where

variable [Facts]
-- ==== Proof.KernelFrame.lean ====
/-
  The frame of the word-level program: from any memory with zero semaphore counters every weakly fair
  execution of @main terminates without a fault, and the five argument arrays end as they were launched.

  Nothing is said of what the two kernels compute. Each pipeline's proof data is RELATIONAL with the empty
  relation: whatever a body is handed in a staging buffer, it hands the buffer back at some contents. An input
  array is never written back, so it leaves its region as it entered; an output array leaves at contents nobody
  names. Between @main's items a core holds every unscoped buffer at a valuation known only off the two output
  arrays, which is all that reading the arguments at the end needs.
-/
import proofs.«427073_j26087631356629_1_alg».proof.Proof.Gen.Kernel.Launch
import proofs.«427073_j26087631356629_1_alg».proof.Proof.Gen.Kernel.Skeleton
import proofs.«427073_j26087631356629_1_alg».proof.Proof.Gen.Kernel.Points
import proofs.«427073_j26087631356629_1_alg».proof.Proof.Gen.Kernel.Regions
import Idealize.ShloMosaic.Lib.Pipeline.Frame
import Idealize.ShloMosaic.Lib.Pipeline.FrameSuffix
import Idealize.ShloMosaic.Lib.Pipeline.Regions
import Idealize.ShloMosaic.Lib.Pipeline.Kit
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## The two kernel bodies, run on buffers at any contents

Each body loads its four staging buffers whole (the last load reads the OUTPUT buffer and its value is dropped)
and stores one value over the whole output buffer. From every buffer at given contents it therefore returns with
the three input buffers as they were and the output buffer at some contents. -/

set_option maxHeartbeats 1000000 in
/-- The first kernel's body. -/
theorem sound_kernel0 (c : Dev nD) (E : Set ℕ) (i : grid0.Coords)
    (arg1 : Memref sig .tc .vmem S1x1024 .i32) (harg1 : arg1.IsWhole) (arg2 : Memref sig .tc .vmem S1024x512 .f32) (harg2 : arg2.IsWhole)
    (arg3 : Memref sig .tc .vmem S4000x512 .f32) (harg3 : arg3.IsWhole) (arg4 : Memref sig .tc .vmem S4000x512 .f32) (harg4 : arg4.IsWhole)
    (y1 : Vec F S1x1024 .i32) (y2 : Vec F S1024x512 .f32) (y3 : Vec F S4000x512 .f32) (y4 : Vec F S4000x512 .f32)
    (K : PUnit → sProp 𝕄) :
    iprop(owns (c : Thread nD τ) arg1 fullShare y1 ∗ owns (c : Thread nD τ) arg2 fullShare y2
        ∗ owns (c : Thread nD τ) arg3 fullShare y3 ∗ owns (c : Thread nD τ) arg4 fullShare y4
        ∗ (iprop(owns (c : Thread nD τ) arg1 fullShare y1 ∗ owns (c : Thread nD τ) arg2 fullShare y2
            ∗ owns (c : Thread nD τ) arg3 fullShare y3 ∗ (∃ X, owns (c : Thread nD τ) arg4 fullShare X)) -∗ K ⟨⟩))
      ⊢ wp frame (wpE (defs₀ (F := F)) Variants.none c none) E (cc0__scatter_kernel i arg1 harg1 arg2 harg2 arg3 harg3 arg4 harg4) K := by
  simp only [cc0__scatter_kernel_eq_skeleton]; unfold cc0__scatter_kernel_skel
  unfold owns
  iintro ⟨⟨%f1, %hf1, H1⟩, ⟨%f2, %hf2, H2⟩, ⟨%f3, %hf3, H3⟩, ⟨%f4, %hf4, H4⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; iexists _; isplitr
  swap; · iexact H4
  ipureintro; rfl

set_option maxHeartbeats 1000000 in
/-- The second kernel's body. -/
theorem sound_kernel1 (c : Dev nD) (E : Set ℕ) (i : grid1.Coords)
    (arg1 : Memref sig .tc .vmem S1024x512 .f32) (harg1 : arg1.IsWhole) (arg2 : Memref sig .tc .vmem S512x2048 .f32) (harg2 : arg2.IsWhole)
    (arg3 : Memref sig .tc .vmem S2048 .f32) (harg3 : arg3.IsWhole) (arg4 : Memref sig .tc .vmem S1024x2048 .f32) (harg4 : arg4.IsWhole)
    (y1 : Vec F S1024x512 .f32) (y2 : Vec F S512x2048 .f32) (y3 : Vec F S2048 .f32) (y4 : Vec F S1024x2048 .f32)
    (K : PUnit → sProp 𝕄) :
    iprop(owns (c : Thread nD τ) arg1 fullShare y1 ∗ owns (c : Thread nD τ) arg2 fullShare y2
        ∗ owns (c : Thread nD τ) arg3 fullShare y3 ∗ owns (c : Thread nD τ) arg4 fullShare y4
        ∗ (iprop(owns (c : Thread nD τ) arg1 fullShare y1 ∗ owns (c : Thread nD τ) arg2 fullShare y2
            ∗ owns (c : Thread nD τ) arg3 fullShare y3 ∗ (∃ X, owns (c : Thread nD τ) arg4 fullShare X)) -∗ K ⟨⟩))
      ⊢ wp frame (wpE (defs₀ (F := F)) Variants.none c none) E (cc1__logits_kernel i arg1 harg1 arg2 harg2 arg3 harg3 arg4 harg4) K := by
  simp only [cc1__logits_kernel_eq_skeleton]; unfold cc1__logits_kernel_skel
  unfold owns
  iintro ⟨⟨%f1, %hf1, H1⟩, ⟨%f2, %hf2, H2⟩, ⟨%f3, %hf3, H3⟩, ⟨%f4, %hf4, H4⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; iexists _; isplitr
  swap; · iexact H4
  ipureintro; rfl

/-! ## The proof data of both pipelines -/

section Run

variable (m : (ℓ : Loc nD τ sig) → Buf (Elt F) ℓ)

/-- Pipeline `p`'s proof data on core `c`. Each windowed array enters at the launch contents after the two host
    stretches (no region reads what another region wrote); of what a body leaves in a staging buffer NOTHING is
    asked; the invariant is the scoped buffers no window stages and the generator register; nothing is owed; every
    array is held at the full share. -/
def rdats (p : Fin 2) (c : Dev nD) : RDat τ (Elt F) Unit ℕ (UR sig nD τ) ℕ (Pipeline.pin (pcfgs (F := F)) adm p) c where
  A w := V2 m c (Pipeline.arrRef (cfgs p).spec w)
  after _ _ _ _ := True
  Φ _ := Pipeline.ΦA (cfgs p).spec c
  q _ := fullShare
  owed _ := 0

theorem rdats_share (p : Fin 2) (c : Dev nD) (w : Fin (cfgs p).W) : (rdats m p c).share w = fullShare :=
  (rdats m p c).share_full (fun _ => rfl) w

/-! ## A core's unscoped buffers between @main's items

A valuation AGREES OFF `S` when it holds, at every TensorCore reference outside `S`, what the launch contents
became under the two host stretches. A region is entered at a valuation agreeing off the earlier regions' outputs
and left at one agreeing off those and its own. -/

/-- `V` holds the host stretches' result at every reference outside `S`. -/
def Agree (c : Dev nD) (S : List (Ref sig .tc)) (V : Valuation τ sig (Elt F)) : Prop :=
  ∀ b : Ref sig .tc, b ∉ S → V (Proc.devRef .tc b) = V2 m c (Proc.devRef .tc b)

theorem agree_nil (c : Dev nD) : Agree m c [] (V2 m c) := fun _ _ => rfl

/-- ENTRY. At a valuation agreeing off `S`, none of pipeline `p`'s arrays in `S`, the unscoped buffers are the
    pipeline's arrays at the proof data's entry contents beside the unscoped rest. -/
theorem entry_arrays (p : Fin 2) (kit : Pipeline.LaunchFacts (nD := nD) (τ := τ) cfgs p) (c : Dev nD)
    (S : List (Ref sig .tc)) (hS : ∀ w, Pipeline.arrRef (cfgs p).spec w ∉ S)
    (V : Valuation τ sig (Elt F)) (hV : Agree m c S V) :
    (StableHlo.held (c : Thread nD τ) (Pipeline.ucRefs τ sig) V : sProp 𝕄)
      ⊢ iprop((rdats m p c).arrays (rdats m p c).A ∗ Pipeline.unscopedRest (cfgs p).spec c (fun b => V b)) := by
  rw [← Pipeline.unscopedBufs_held]
  exact Pipeline.RDat.arrays_of_unscopedBufs (p := p) (pcfgs (F := F)) adm (rdats m) kit.win kit.arr_whole c
    (rdats_share m p c) (fun b => V b) fun w => (hV _ (hS w)).symm

/-- EXIT. The pipeline's arrays at some contents they may hold after every write-back, beside the unscoped rest at a
    valuation agreeing off `S`, are the unscoped buffers at a valuation agreeing off `S` and the pipeline's output
    arrays `outs`: an input array was never written back, so it holds its entry contents. -/
theorem exit_arrays (p : Fin 2) (kit : Pipeline.LaunchFacts (nD := nD) (τ := τ) cfgs p) (c : Dev nD)
    (S outs : List (Ref sig .tc))
    (houts : ∀ w, ((cfgs p).win w).isOut = true → Pipeline.arrRef (cfgs p).spec w ∈ outs)
    (V : Valuation τ sig (Elt F)) (hV : Agree m c S V) :
    iprop((rdats m p c).arraysAt (cfgs p).N ∗ Pipeline.unscopedRest (cfgs p).spec c (fun b => V b))
      ⊢ (iprop(∃ V' : Valuation τ sig (Elt F), ⌜Agree m c (S ++ outs) V'⌝
          ∗ StableHlo.held (c : Thread nD τ) (Pipeline.ucRefs τ sig) V') : sProp 𝕄) := by
  unfold RDat.arraysAt
  iintro ⟨Ha, Hrest⟩
  ihave Ha' := (BI.bigSep_exists_pi Finset.univ (fun w G => iprop(⌜(rdats m p c).ArrAt w (cfgs p).N G⌝
      ∗ ((cfgs p).win w).arr.view.loc (c.tc : Thread nD τ) ↦[((cfgs p).win w).arr.view.set]{(rdats m p c).share w} G))) $$ Ha
  icases Ha' with ⟨%G, Ha⟩
  ihave Ha2 := (BI.bigSep_pure_sep Finset.univ (fun w => (rdats m p c).ArrAt w (cfgs p).N (G w))
      (fun w => ((cfgs p).win w).arr.view.loc (c.tc : Thread nD τ) ↦[((cfgs p).win w).arr.view.set]{(rdats m p c).share w} G w)) $$ Ha
  icases Ha2 with ⟨%hG, Ha⟩
  iexists Pipeline.withArrays (cfgs p).spec c V G
  isplitr
  · ipureintro
    intro b hb
    by_cases h : ∃ w, Pipeline.arrRef (cfgs p).spec w = b
    · obtain ⟨w, rfl⟩ := h
      have hin : ((cfgs p).win w).isOut = false := by
        cases hio : ((cfgs p).win w).isOut
        · rfl
        · exact absurd (List.mem_append_right S (houts w hio)) hb
      have hGw := hG w (Finset.mem_univ w)
      rw [(rdats m p c).ArrAt_in w hin] at hGw
      rw [Pipeline.withArrays_arr (cfgs p).spec kit.win.arr_inj c V G w, hGw]
      rfl
    · rw [Pipeline.withArrays_of_ne (cfgs p).spec c V G b fun w e => h ⟨w, e⟩]
      exact hV b fun hbS => hb (List.mem_append_left outs hbS)
  · rw [← Pipeline.unscopedBufs_held, Pipeline.unscopedBufs_split (Pipeline.pin (pcfgs (F := F)) adm) p kit.win.arr_unscoped kit.win.arr_inj c]
    isplitl [Ha]
    · iapply (Entails.of_eq (bigSep_congr (fun w _ => by
          rw [(kit.arr_whole w).set_eq_univ, rdats_share m p c w, Pipeline.withArrays_arr (cfgs p).spec kit.win.arr_inj c V G w]) :
        (bigSep Finset.univ fun w => (((cfgs p).win w).arr.view.loc (c.tc : Thread nD τ) ↦[((cfgs p).win w).arr.view.set]{(rdats m p c).share w} G w : sProp 𝕄))
          = bigSep Finset.univ fun w => (((c.tc : Thread nD τ).loc (Pipeline.arrRef (cfgs p).spec w)) ↦{fullShare}
              Pipeline.withArrays (cfgs p).spec c V G (Proc.devRef .tc (Pipeline.arrRef (cfgs p).spec w)) : sProp 𝕄)))
      iexact Ha
    · unfold Pipeline.unscopedRest
      iapply (Entails.of_eq (bigSep_congr fun b hb => by
        beta_reduce
        rw [Pipeline.withArrays_of_ne (cfgs p).spec c V G b fun w e =>
          (Finset.mem_sdiff.mp hb).2 (Finset.mem_image.mpr ⟨w, Finset.mem_univ _, e⟩)]))
      iexact Hrest

/-! ## The body obligations

At a point the pipeline hands the body its four current staging buffers at contents it may then hold — which ones
is never used — and takes them back at any contents. The invariant and the core's dues pass through unread. -/

/-- The first kernel's body at a grid point, between two assertions `P`, `Q` that ride along. -/
theorem sound_body0 (c : Dev nD) (t : Fin cfg0.N) (Y : (w : Fin cfg0.W) → (cfg0.win w).block.Idx → Elt F (cfg0.win w).elt)
    (P Q : sProp 𝕄) :
    iprop(P ∗ Q ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop(P ∗ Q ∗ (∃ X, ⌜True⌝ ∗ owns (c : Thread nD τ) (st0_0 t) fullShare X) ∗ (∃ X, ⌜True⌝ ∗ owns (c : Thread nD τ) (st0_1 t) fullShare X)
            ∗ (∃ X, ⌜True⌝ ∗ owns (c : Thread nD τ) (st0_2 t) fullShare X) ∗ (∃ X, ⌜True⌝ ∗ owns (c : Thread nD τ) (st0_3 t) fullShare X))) := by
  unfold bodyAt0
  iintro ⟨HP, HQ, H0, H1, H2, H3⟩
  iapply (sound_kernel0 c Set.univ _ _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, ⟨%X, H3⟩⟩
  isplitl [HP]; · iexact HP
  isplitl [HQ]; · iexact HQ
  isplitl [H0]
  · iexists _; isplitr; · ipureintro; trivial
    iexact H0
  isplitl [H1]
  · iexists _; isplitr; · ipureintro; trivial
    iexact H1
  isplitl [H2]
  · iexists _; isplitr; · ipureintro; trivial
    iexact H2
  iexists X; isplitr; · ipureintro; trivial
  iexact H3

/-- The second kernel's body at a grid point, between two assertions `P`, `Q` that ride along. -/
theorem sound_body1 (c : Dev nD) (t : Fin cfg1.N) (Y : (w : Fin cfg1.W) → (cfg1.win w).block.Idx → Elt F (cfg1.win w).elt)
    (P Q : sProp 𝕄) :
    iprop(P ∗ Q ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3))
      ⊢ wp frame (wpE (defs₀ (F := F)) Variants.none c none) Set.univ (bodyAt1 t) (fun _ =>
          iprop(P ∗ Q ∗ (∃ X, ⌜True⌝ ∗ owns (c : Thread nD τ) (st1_0 t) fullShare X) ∗ (∃ X, ⌜True⌝ ∗ owns (c : Thread nD τ) (st1_1 t) fullShare X)
            ∗ (∃ X, ⌜True⌝ ∗ owns (c : Thread nD τ) (st1_2 t) fullShare X) ∗ (∃ X, ⌜True⌝ ∗ owns (c : Thread nD τ) (st1_3 t) fullShare X))) := by
  unfold bodyAt1
  iintro ⟨HP, HQ, H0, H1, H2, H3⟩
  iapply (sound_kernel1 c Set.univ _ _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, ⟨%X, H3⟩⟩
  isplitl [HP]; · iexact HP
  isplitl [HQ]; · iexact HQ
  isplitl [H0]
  · iexists _; isplitr; · ipureintro; trivial
    iexact H0
  isplitl [H1]
  · iexists _; isplitr; · ipureintro; trivial
    iexact H1
  isplitl [H2]
  · iexists _; isplitr; · ipureintro; trivial
    iexact H2
  iexists X; isplitr; · ipureintro; trivial
  iexact H3

/-- The library's body obligation of pipeline 0's relational data: what the buffers may hold is never read. -/
theorem body_obligation0 (c : Dev nD) : (rdats m 0 c).BodyObligation (defs₀ (F := F)) Variants.none () Set.univ := fun t Y _ => by
  rw [bigSep_W0, bigSep_W0]
  exact sound_body0 c t Y _ _

/-- The same of pipeline 1's. -/
theorem body_obligation1 (c : Dev nD) : (rdats m 1 c).BodyObligation (defs₀ (F := F)) Variants.none () Set.univ := fun t Y _ => by
  rw [bigSep_W1, bigSep_W1]
  exact sound_body1 c t Y _ _

/-! ## The thread state, and a region as a segment -/

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state and the core's dues,
    which are none. -/
abbrev R (c : Dev nD) : sProp 𝕄 := iprop((∃ r, prngReg c r) ∗ ∃ W, owes (c : Thread nD τ) (0 : CellTallies nD τ sig Unit) W)

/-- Core `c` between two items: every unscoped buffer whole at SOME valuation agreeing off `S`, beside `R`. -/
def St (S : List (Ref sig .tc)) (c : Dev nD) : sProp 𝕄 :=
  iprop((∃ V : Valuation τ sig (Elt F), ⌜Agree m c S V⌝ ∗ StableHlo.held (c : Thread nD τ) (Pipeline.ucRefs τ sig) V) ∗ R c)

/-- No pipeline prefetches a table: the tables' holdings are empty. -/
theorem prefHeld_emp (p : Fin 2) (c : Dev nD) (q : Fin (pcfgs (F := F) p).pre.K → PosShare TreeShare) :
    (Pipeline.prefHeld (Ix := Unit) (Name := ℕ) (U := UR sig nD τ) (Lvl := ℕ) (pcfgs (F := F) p).pre c q (adm p).1 : sProp 𝕄) = BI.emp := by
  haveI : IsEmpty (Fin (pcfgs (F := F) p).pre.K) := (inferInstance : IsEmpty (Fin 0))
  unfold Pipeline.prefHeld
  rw [show (Finset.univ : Finset (Fin (pcfgs (F := F) p).pre.K)) = ∅ from Finset.univ_eq_empty, BI.bigSep_empty]

-- the library's lemmas are stated over `Pipeline.pin pcfgs adm p`, which is `cfgs p` only after unfolding plain definitions
set_option backward.isDefEq.respectTransparency.types false in
/-- Pipeline `p`'s region as a segment, entered at a valuation agreeing off `S` (none of its arrays in `S`) and left at one
    agreeing off `S` and its output arrays `outs`. ENTRY sorts the arrays out of the unscoped buffers at the entry
    contents; the generator register goes into the invariant and comes back; the unscoped rest bypasses the region at its
    valuation; EXIT puts the arrays back wherever the write-backs left them. The kernel has no semaphore of its own and
    owes nothing. -/
def region (p : Fin 2) (kit : Pipeline.LaunchFacts (nD := nD) (τ := τ) cfgs p)
    (hbody : ∀ c, (rdats m p c).BodyObligation (defs₀ (F := F)) 𝒱₀ () Set.univ)
    (S outs : List (Ref sig .tc)) (hS : ∀ w, Pipeline.arrRef (cfgs p).spec w ∉ S)
    (houts : ∀ w, ((cfgs p).win w).isOut = true → Pipeline.arrRef (cfgs p).spec w ∈ outs) :
    Pipeline.RDat.RegionSeg (pcfgs (F := F)) adm (rdats m) () defs₀ 𝒱₀ L lv p where
  win := kit.win.to₀
  block_pos := kit.block_pos
  stage_whole := kit.stage_whole
  K := PEmpty
  osem k := k.elim
  ho := Pipeline.OwnSemFacts.none _
  hbody := hbody
  hwaits := Pipeline.RDat.hwaits_of_owed_zero _ _ _ _ L lv p fun _ _ => rfl
  pre := St m S
  post := St m (S ++ outs)
  X c := iprop(∃ r, prngReg c r)
  Y c := iprop(∃ r, prngReg c r)
  Z c := iprop(∃ V : Valuation τ sig (Elt F), ⌜Agree m c S V⌝ ∗ Pipeline.unscopedRest (cfgs p).spec c (fun b => V b))
  hentry c := by
    rw [Pipeline.ownSems0_none, prefHeld_emp]
    unfold St
    iintro ⟨⟨⟨%V, %hV, Hh⟩, Hg, ⟨%W, HO⟩⟩, -, -⟩
    ihave H := (entry_arrays m p kit c S hS V hV) $$ Hh
    icases H with ⟨Ha, Hrest⟩
    imodintro
    isplitl [Ha]; · iexact Ha
    isplitr; · iempintro
    isplitl [HO]
    · unfold Pipeline.RDat.owesAt Pipeline.owesWithin
      iexists W; isplitr; · ipureintro; exact fun _ _ => Or.inl trivial
      iexact HO
    isplitl [Hg]; · iexact Hg
    iexists V; isplitr; · ipureintro; exact hV
    iexact Hrest
  hin c := by
    rw [prefHeld_emp]
    show _ ⊢ Pipeline.ΦA (cfgs p).spec c
    unfold Pipeline.ΦA
    iintro ⟨Hg, -, Hs⟩
    isplitl [Hs]; · iexact Hs
    iexact Hg
  hout c := by
    rw [Pipeline.ownSems0_none]
    show Pipeline.ΦA (cfgs p).spec c ⊢ _
    unfold Pipeline.ΦA
    iintro ⟨Hs, Hg⟩
    isplitl [Hg]; · iexact Hg
    isplitr; · iempintro
    iexact Hs
  hexit c := by
    unfold St
    iintro ⟨Ha, HO, Hg, ⟨%V, %hV, Hrest⟩⟩
    ihave H := (exit_arrays m p kit c S outs houts V hV) $$ [Ha Hrest]
    · isplitl [Ha] <;> iassumption
    imodintro
    isplitl [H]; · iexact H
    isplitl [Hg]; · iexact Hg
    unfold Pipeline.RDat.owesAt Pipeline.owesWithin
    icases HO with ⟨%W, -, HO⟩
    iexists W; iexact HO

/-! ## @main as segments, and the launch -/

/-- The first region: entered at the valuation the host stretches made, it may change `main_v9`. -/
def reg0 : Pipeline.RDat.RegionSeg (pcfgs (F := F)) adm (rdats m) () defs₀ 𝒱₀ L lv 0 :=
  region m 0 launch0 (body_obligation0 m) [] [main_v9] (fun _ => List.not_mem_nil) (by decide)

/-- The second region: none of its arrays is `main_v9`; it may change `main_v10`. -/
def reg1 : Pipeline.RDat.RegionSeg (pcfgs (F := F)) adm (rdats m) () defs₀ 𝒱₀ L lv 1 :=
  region m 1 launch1 (body_obligation1 m) [main_v9] [main_v10] (by decide) (by decide)

/-- @main's four items in order: the two host stretches over every unscoped buffer from the launch contents, `R` riding
    along, then the two regions. -/
abbrev segs : List (Pipeline.RDat.Seg (pcfgs (F := F)) adm (rdats m) () defs₀ 𝒱₀ L lv) :=
  [ .host (seg0 m 𝒱₀ L lv fun _ => R), .host (seg1 m 𝒱₀ L lv fun _ => R), .region (reg0 m), .region (reg1 m) ]

/-- @main is the run of the segments: it is the chain of its items, and so is the segments' run. -/
theorem main_run (c : Dev nD) : main (F := F) c = Pipeline.RDat.Seg.run (segs m) := by
  rw [main_chain c, Pipeline.RDat.Seg.run_eq_chain]; rfl

/-- The launch element is the pipeline library's own; no core gets a ghost resource besides. -/
theorem launch_elt (u : UR sig nD τ) :
    (ownU u : sProp 𝕄) ⊢ |={Set.univ}=> iprop(BI.own (emb₁ u) ∗ bigSep Finset.univ fun _ : Dev nD => (BI.emp : sProp 𝕄)) := by
  rw [ownU_emb₁, BI.bigSep_emp_const]
  iintro H; imodintro
  isplitl [H]; · iexact H
  iempintro

/-- The host stretches write no argument: each argument's buffer holds its launch contents when the regions begin. -/
theorem V2_arg (c : Dev nD) (r : Ref sig .tc) (h0 : r ∉ hostOps0_W) (h1 : r ∉ hostOps0_1_W) :
    V2 m c (Proc.devRef .tc r) = m ((c.tc : Thread nD τ).loc r) :=
  (V2_of m c r h1).trans ((V1_of m c r h0).trans rfl)

/-- The last thread state but for the dues: every unscoped buffer at some valuation agreeing off the two output arrays,
    the generator register at some state. -/
abbrev Tn (c : Dev nD) : sProp 𝕄 :=
  iprop((∃ V : Valuation τ sig (Elt F), ⌜Agree m c [main_v9, main_v10] V⌝ ∗ StableHlo.held (c : Thread nD τ) (Pipeline.ucRefs τ sig) V)
    ∗ ∃ r, prngReg c r)

/-- Where the host stretches end the regions begin: the valuation they made agrees with itself everywhere. -/
theorem enter_regions (c : Dev nD) :
    iprop(StableHlo.held (c : Thread nD τ) (Pipeline.ucRefs τ sig) (V2 m c) ∗ R c) ⊢ St m [] c := by
  unfold St
  iintro ⟨Hh, HR⟩
  isplitl [Hh]
  · iexists V2 m c; isplitr; · ipureintro; exact agree_nil m c
    iexact Hh
  iexact HR

/-- Where the regions end: the last thread state beside the core owing nothing. -/
theorem leave_regions (c : Dev nD) :
    St m ([main_v9] ++ [main_v10]) c ⊢ iprop(Tn m c ∗ ∃ W, owes (c : Thread nD τ) (0 : CellTallies nD τ sig Unit) W) := by
  unfold St
  iintro ⟨Hh, Hg, HO⟩
  isplitl [Hh Hg]
  · isplitl [Hh]; · iexact Hh
    iexact Hg
  iexact HO

variable (ρ : Dev nD → PrngReg)

-- the launch theorem's implicit arguments are found by unifying its conclusion with this one, through plain definitions
set_option backward.isDefEq.respectTransparency.types false in
/-- THE FRAME. From any memory with zero semaphore counters every weakly fair execution of @main terminates, nothing
    faulting, and every final memory holds each of the five argument arrays as launched: the launch over the four
    segments; the last thread state read against the final state; an argument is neither output array, so the last
    valuation holds what the host stretches left there, which is what was launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := launch_elt _)
    (T₀ := fun c => iprop(StableHlo.held (c : Thread nD τ) (Pipeline.ucRefs τ sig) (V0 m c) ∗ R c)) (Tₙ := Tn m)
    (hch := ⟨fun _ => .rfl, fun _ => .rfl,
      fun c => enter_regions m c, fun _ => .rfl, fun c => leave_regions m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hg, -⟩, -⟩
      imodintro
      isplitl [Hh]; · iexact Hh
      isplitl [Hg]; · iexists _; iexact Hg
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      iintro ⟨⟨⟨%V, %hV, Hh⟩, -⟩, HSI⟩
      unfold StableHlo.held
      ihave Hr := (pointsTo_read_all (Pipeline.ucRefs τ sig) (fun b => ((c : Thread nD τ).1, b)) V s') $$ [Hh HSI]
      · isplitl [Hh] <;> iassumption
      icases Hr with ⟨%h, HSI⟩
      imodintro
      isplitr
      · ipureintro
        have key : ∀ r : Ref sig .tc, ¬ (Proc.devRef .tc r : DevRef τ sig).isScoped → r ∉ [main_v9, main_v10] → r ∉ hostOps0_W → r ∉ hostOps0_1_W →
            s'.mem.mem ((c.tc : Thread nD τ).loc r) = m ((c.tc : Thread nD τ).loc r) := fun r hr ho h0 h1 =>
          (h (Proc.devRef .tc r) (Finset.mem_filter.mpr ⟨StableHlo.devRef_mem_tcRefs r, hr⟩)).trans ((hV r ho).trans (V2_arg m c r h0 h1))
        exact ⟨key main_arg0 (by decide) (by decide) (by decide) (by decide), key main_arg1 (by decide) (by decide) (by decide) (by decide),
          key main_arg2 (by decide) (by decide) (by decide) (by decide), key main_arg3 (by decide) (by decide) (by decide) (by decide),
          key main_arg4 (by decide) (by decide) (by decide) (by decide)⟩
      · iexact HSI)
    (hQ := fun _ h => h)

end Run

end Cert.Kernel.Hand

end
-- ==== Proof.KIRegion0.lean ====
/-
  The first pallas_call (25 grid points, blocks of 4000 rows of the centers table): what each window's staging buffer
  holds after the body at a grid point, as a function of the arrays the region finds, and the body's obligation.
  The two small operands (the label row and the scaled difference matrix) are staged whole; the table's block and
  the result's block are rows 4000·t … 4000·t + 3999.
-/
import proofs.«427073_j26087631356629_1_alg».proof.Proof.Gen.KernelIdeal.Launch
import proofs.«427073_j26087631356629_1_alg».proof.Proof.Gen.KernelIdeal.Skeleton
import proofs.«427073_j26087631356629_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the first pipeline: after the body each input buffer still holds its block and the result's
    buffer holds the body's one stored value, computed from the three input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (grid0.coords t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (grid0.coords t) (iblk0 V c 0 t) (iblk0 V c 1 t) (iblk0 V c 2 t) := by dsimp only [dat0]

/-! ## The input windows' buffers before the body -/

/-- Input window 0 (the label row, staged whole, fetched at the first point only): its current staging buffer holds
    its block at every point, fetched there or not — unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the scaled difference matrix, staged whole, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the table's block of 4000 rows, fetched at every point). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

/-- The zero offsets of a whole-buffer access of a rank-2 buffer, however spelt. -/
theorem zeros2 : (![0, 0] : Fin 2 → Nat) = fun _ => 0 := funext fun a => by fin_cases a <;> rfl

/-- The body's one store is through the whole-buffer rectangle, so it covers the result's buffer. -/
theorem cover0_3 (p0 : Vec F S4000x512 .f32) (y : S4000x512.Idx) :
    ∃ pc ∈ ([⟨Rect.unit (s := S4000x512) ![0, 0] S4000x512.size inb_S4000x512_S4000x512_0_0, p0⟩] :
      List (View.Piece (Elt F) S4000x512 .f32)), y ∈ pc.1.set :=
  ⟨_, List.mem_singleton_self _, View.mem_set_unit_zero zeros2 inb_S4000x512_S4000x512_0_0 y⟩

set_option maxHeartbeats 1000000 in
/-- The kernel body on whole staging memrefs, the three inputs' at read contents and the result's at anything, runs
    to the continuation holding the inputs' as they were and the result's at the one stored value computed from them:
    three whole-buffer loads, a load of the result's buffer that nothing reads, and one whole-buffer store. -/
theorem sound_kernel0 (c : Dev nD) (E : Set ℕ) (i : grid0.Coords)
    (arg1 : Memref sig .tc .vmem S1x1024 .i32) (harg1 : arg1.IsWhole)
    (arg2 : Memref sig .tc .vmem S1024x512 .f32) (harg2 : arg2.IsWhole)
    (arg3 : Memref sig .tc .vmem S4000x512 .f32) (harg3 : arg3.IsWhole)
    (arg4 : Memref sig .tc .vmem S4000x512 .f32) (harg4 : arg4.IsWhole)
    (x0 : Vec F S1x1024 .i32) (x1 : Vec F S1024x512 .f32) (x2 : Vec F S4000x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 i x0 x1 x2)) -∗ K ⟨⟩))
      ⊢ wp frame (wpE (defs₀ (F := F)) Variants.none c none) E (cc0__scatter_kernel i arg1 harg1 arg2 harg2 arg3 harg3 arg4 harg4) K := by
  simp only [cc0__scatter_kernel_eq_skeleton]; unfold cc0__scatter_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _), View.canon_unit_zero zeros2,
    View.readAt_eq_ld, View.readAt_eq_ld, View.readAt_eq_ld,
    View.ld_unit_zero (S := S1x1024) zeros2, View.ld_unit_zero (S := S1024x512) zeros2, View.ld_unit_zero (S := S4000x512) zeros2]

/-! ## The body obligation, at a generic point -/

/-- What the body is called with at point `t`: the invariant, the core's debts, and the four windows' current staging
    buffers, each at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  The second pallas_call (49 grid points, blocks of 2048 columns of the weight matrix, the bias vector and the
  result): what each window's staging buffer holds after the body at a grid point. 100000 = 48·2048 + 1696, so the
  last block overhangs its array by 352 columns: there the fetched buffers hold words nothing names, and the proof
  data fills each block out past the array's end with the zero word; only the columns inside the array are stated.
-/
import proofs.«427073_j26087631356629_1_alg».proof.Proof.Gen.KernelIdeal.Launch
import proofs.«427073_j26087631356629_1_alg».proof.Proof.Gen.KernelIdeal.Skeleton
import proofs.«427073_j26087631356629_1_alg».proof.Proof.Gen.KernelIdeal.Points
import Idealize.ShloMosaic.PureOps.Ideal
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

-- the TensorCore's buffer contents when the region is entered
variable (V : (c : Dev nD) → (b : Ref sig .tc) → Buf (Elt Ideal) ((c : Thread nD τ).loc b))

/-- Window `w`'s block at point `t`, read off its array as the region finds it: its part inside the array. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The weight block at point `t`, filled out with zeros past the array's last column. -/
def wblk (c : Dev nD) (t : Fin cfg1.N) : Vec Ideal S512x2048 .f32 :=
  (cfg1.win 1).fill (cfg1.grid.coords t) (fun _ => Scalar.ofBits (F := Ideal) .f32 0#32) (iblk1 V c 1 t)

/-- The bias block at point `t`, filled out likewise. -/
def bblk (c : Dev nD) (t : Fin cfg1.N) : Vec Ideal S2048 .f32 :=
  (cfg1.win 2).fill (cfg1.grid.coords t) (fun _ => Scalar.ofBits (F := Ideal) .f32 0#32) (iblk1 V c 2 t)

/-- The proof data of the second pipeline. -/
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => wblk V c t
    | ⟨2, _⟩ => bblk V c t
    | ⟨3, _⟩ => k1_pay1 (iblk1 V c 0 t) (wblk V c t) (bblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = wblk V c t := by dsimp only [dat1]
theorem after1_2 (c : Dev nD) (t : Fin cfg1.N) : (dat1 V c).after 2 t = bblk V c t := by dsimp only [dat1]
theorem after1_3 (c : Dev nD) (t : Fin cfg1.N) :
    (dat1 V c).after 3 t = k1_pay1 (iblk1 V c 0 t) (wblk V c t) (bblk V c t) := by dsimp only [dat1]

/-! ## What the body finds in each staging buffer -/

/-- The activation window is whole and fetched once: its buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The weight window is fetched at every point: its block on the columns inside the array, `d` past them. -/
theorem before1_1 (c : Dev nD) (t : Fin cfg1.N) (d) :
    (dat1 V c).before 1 t d = (cfg1.win 1).fill (cfg1.grid.coords t) d (iblk1 V c 1 t) := by
  rw [(dat1 V c).before_fetched 1 t (fetch1_1 t) d]; unfold Dat.fetched Dat.blockOf iblk1; rw [A_eq1]

/-- The bias window likewise. -/
theorem before1_2 (c : Dev nD) (t : Fin cfg1.N) (d) :
    (dat1 V c).before 2 t d = (cfg1.win 2).fill (cfg1.grid.coords t) d (iblk1 V c 2 t) := by
  rw [(dat1 V c).before_fetched 2 t (fetch1_2 t) d]; unfold Dat.fetched Dat.blockOf iblk1; rw [A_eq1]

/-- The result window is written back at every point: its buffer holds anything. -/
theorem before1_3 (c : Dev nD) (t : Fin cfg1.N) (d) : (dat1 V c).before 3 t d = d :=
  (dat1 V c).before_out_reset 3 rfl t (by
    by_cases h : t.val = 0
    · exact .inl h
    · exact .inr ⟨h, flush1_3 _⟩) d

/-! ## The columns inside the array -/

/-- At every point the weight block keeps all its rows, and the weight, bias and result blocks keep the same
    number of columns. -/
theorem xsize1 : ∀ t : Fin cfg1.N,
    win1_1.xsize (grid1.coords t) 0 = 512
    ∧ win1_1.xsize (grid1.coords t) 1 = win1_3.xsize (grid1.coords t) 1
    ∧ win1_2.xsize (grid1.coords t) 0 = win1_3.xsize (grid1.coords t) 1 :=
  (by decide +kernel : ∀ t : Fin grid1.N, win1_1.xsize (grid1.coords t) 0 = 512
    ∧ win1_1.xsize (grid1.coords t) 1 = win1_3.xsize (grid1.coords t) 1
    ∧ win1_2.xsize (grid1.coords t) 0 = win1_3.xsize (grid1.coords t) 1)

/-- On a column inside the array a filled weight block reads the block, whatever fills it out. -/
theorem fill1_1_congr (t : Fin cfg1.N) (d d' : S512x2048.Idx → Elt Ideal .f32)
    (g : (win1_1.xblock (grid1.coords t)).Idx → Elt Ideal .f32) (k : S512x2048.Idx)
    (hk : (k 1).val < win1_3.xsize (grid1.coords t) 1) :
    win1_1.fill (grid1.coords t) d g k = win1_1.fill (grid1.coords t) d' g k := by
  have hm : win1_1.moved (grid1.coords t) k = true := (win1_1.moved_iff _ k).mpr fun a => by
    match a with
    | ⟨0, _⟩ => exact (xsize1 t).1 ▸ (k 0).isLt
    | ⟨1, _⟩ => exact (xsize1 t).2.1 ▸ hk
  unfold Window.fill; rw [dif_pos hm, dif_pos hm]

/-- And a filled bias block likewise. -/
theorem fill1_2_congr (t : Fin cfg1.N) (d d' : S2048.Idx → Elt Ideal .f32)
    (g : (win1_2.xblock (grid1.coords t)).Idx → Elt Ideal .f32) (q : S2048.Idx)
    (hq : (q 0).val < win1_3.xsize (grid1.coords t) 1) :
    win1_2.fill (grid1.coords t) d g q = win1_2.fill (grid1.coords t) d' g q := by
  have hm : win1_2.moved (grid1.coords t) q = true := (win1_2.moved_iff _ q).mpr fun a => by
    match a with
    | ⟨0, _⟩ => exact (xsize1 t).2.2 ▸ hq
  unfold Window.fill; rw [dif_pos hm, dif_pos hm]

/-! ## The payload, column by column -/

/-- The bias row spread over the rows reads, at column `q`, the bias's entry `q` alone. -/
theorem bias_congr (B B' : Vec Ideal S2048 .f32) (n : Nat)
    (hB : ∀ q : S2048.Idx, (q 0).val < n → B q = B' q) (j : S1024x2048.Idx) (hj : (j 1).val < n) :
    broadcastTo S1024x2048 (shapeCast S1x2048 B shapeCasts_S2048_S1x2048) broadcasts_S1x2048_S1024x2048 j
      = broadcastTo S1024x2048 (shapeCast S1x2048 B' shapeCasts_S2048_S1x2048) broadcasts_S1x2048_S1024x2048 j := by
  unfold broadcastTo
  rw [shapeCast_addUnit_apply (![2048]) B, shapeCast_addUnit_apply (![2048]) B']
  exact hB _ hj

/-- The payload's entry (p, q) is Σ_k X0 (p, k) · W (k, q) + B q over the extended reals: it reads column `q` of
    the weight block and entry `q` of the bias block only. So two weight blocks and two bias blocks that agree on
    the columns below `n` give payloads that agree on those columns. -/
theorem k1_pay1_cols (X0 : Vec Ideal S1024x512 .f32) (W W' : Vec Ideal S512x2048 .f32) (B B' : Vec Ideal S2048 .f32) (n : Nat)
    (hW : ∀ k : S512x2048.Idx, (k 1).val < n → W k = W' k)
    (hB : ∀ q : S2048.Idx, (q 0).val < n → B q = B' q)
    (j : S1024x2048.Idx) (hj : (j 1).val < n) :
    k1_pay1 (F := Ideal) X0 W B j = k1_pay1 (F := Ideal) X0 W' B' j := by
  unfold k1_pay1
  simp only [matmul]
  rw [ValueIdx.addf_apply, ValueIdx.addf_apply, Ideal.matmul_apply, Ideal.matmul_apply, bias_congr B B' n hB j hj]
  congr 2
  refine Finset.sum_congr rfl fun k _ => ?_
  rw [ValueIdx.truncf_apply, ValueIdx.truncf_apply, ValueIdx.truncf_apply]
  rw [hW _ (show ((dot_S1024x512_S512x2048_S1024x2048_1_0_0_1_n_n.rhsIdx j k) 1).val < n from hj)]

/-- At point `t`, on the columns inside the array, the payload of blocks filled out with anything is the payload
    of the blocks filled out with zeros. -/
theorem cut_pay1 (t : Fin cfg1.N) (X0 : Vec Ideal S1024x512 .f32) (d1 d1' : S512x2048.Idx → Elt Ideal .f32)
    (g1 : (win1_1.xblock (grid1.coords t)).Idx → Elt Ideal .f32) (d2 d2' : S2048.Idx → Elt Ideal .f32)
    (g2 : (win1_2.xblock (grid1.coords t)).Idx → Elt Ideal .f32) :
    win1_3.cut (grid1.coords t) (k1_pay1 (F := Ideal) X0 (win1_1.fill (grid1.coords t) d1 g1) (win1_2.fill (grid1.coords t) d2 g2))
      = win1_3.cut (grid1.coords t) (k1_pay1 (F := Ideal) X0 (win1_1.fill (grid1.coords t) d1' g1) (win1_2.fill (grid1.coords t) d2' g2)) :=
  funext fun j => k1_pay1_cols X0 _ _ _ _ (win1_3.xsize (grid1.coords t) 1)
    (fun k hk => fill1_1_congr t d1 d1' g1 k hk) (fun q hq => fill1_2_congr t d2 d2' g2 q hq) _ (j 1).isLt

/-! ## The body's triple -/

set_option maxHeartbeats 1000000 in
/-- The kernel body on whole staging memrefs, the three inputs' at read contents `x0`, `x1`, `x2` and the result's
    at anything: three whole loads, the dead load, one whole store of the payload. It runs to the continuation
    holding the inputs' as they were and the result's at the payload of the three. -/
theorem sound_kernel1 (c : Dev nD) (E : Set ℕ) (i : grid1.Coords)
    (arg1 : Memref sig .tc .vmem S1024x512 .f32) (harg1 : arg1.IsWhole)
    (arg2 : Memref sig .tc .vmem S512x2048 .f32) (harg2 : arg2.IsWhole)
    (arg3 : Memref sig .tc .vmem S2048 .f32) (harg3 : arg3.IsWhole)
    (arg4 : Memref sig .tc .vmem S1024x2048 .f32) (harg4 : arg4.IsWhole)
    (x0 : Vec Ideal S1024x512 .f32) (x1 : Vec Ideal S512x2048 .f32) (x2 : Vec Ideal S2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 (F := Ideal) x0 x1 x2)) -∗ K ⟨⟩))
      ⊢ wp frame (wpE (defs₀ (F := Ideal)) Variants.none c none) E (cc1__logits_kernel i arg1 harg1 arg2 harg2 arg3 harg3 arg4 harg4) K := by
  have hz : (![0, 0] : Fin 2 → Nat) = fun _ => 0 := funext fun a => by fin_cases a <;> rfl
  have hz1 : (![0] : Fin 1 → Nat) = fun _ => 0 := funext fun a => by fin_cases a; rfl
  simp only [cc1__logits_kernel_eq_skeleton]; unfold cc1__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz inb_S1024x2048_S1024x2048_0_0 y⟩),
    View.canon_unit_zero hz, View.readAt_eq_ld, View.readAt_eq_ld, View.readAt_eq_ld,
    View.ld_unit_zero hz, View.ld_unit_zero hz, View.ld_unit_zero hz1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the activation buffer at its block, each clipped window's at its block on the columns
    inside the array. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare
        ((cfg1.win 1).fill (cfg1.grid.coords t) d ((cfg1.win 1).cut (cfg1.grid.coords t) ((dat1 V c).after 1 t))))
    ∗ (∃ d, owns (c : Thread nD τ) (st1_2 t) fullShare
        ((cfg1.win 2).fill (cfg1.grid.coords t) d ((cfg1.win 2).cut (cfg1.grid.coords t) ((dat1 V c).after 2 t))))
    ∗ (∃ d, owns (c : Thread nD τ) (st1_3 t) fullShare
        ((cfg1.win 3).fill (cfg1.grid.coords t) d ((cfg1.win 3).cut (cfg1.grid.coords t) ((dat1 V c).after 3 t)))))

/-- The body at any point: the inputs' buffers hold their blocks, the clipped ones filled out with anything; the
    kernel's triple applies; what comes back agrees with the proof data on the columns inside the array. -/
theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t)
    ((cfg1.win 1).fill (cfg1.grid.coords t) d1 (iblk1 V c 1 t)) ((cfg1.win 2).fill (cfg1.grid.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; unfold wblk; rw [Window.cut_fill]; iexact H1
  isplitl [H2]
  · iexists d2; unfold bblk; rw [Window.cut_fill]; iexact H2
  iexists _
  unfold wblk bblk
  rw [← cut_pay1 t (iblk1 V c 0 t) d1 _ (iblk1 V c 1 t) d2 _ (iblk1 V c 2 t), Window.fill_cut]
  iexact H3

/-- The body's obligation at every grid point, each clipped window stated on its columns inside the array. -/
theorem body_obligation1 (c : Dev nD) : BodyObligationLoose (dat1 V c) (defs₀ (F := Ideal)) Variants.none () Set.univ := fun t => by
  rw [bigSep_W1, bigSep_W1]
  exact sound_body1 V c t

end Cert.KernelIdeal.Hand

end
-- ==== Proof.KIRun.lean ====
/-
  The run of the idealized kernel program from the launch to the return: two stretches of host operations, then
  the two pallas_calls. The buffer contents at each boundary are a fold from the launch memory: a stretch's
  operations applied in order; a pallas_call's arrays at what its write-backs leave (each input array as it was
  entered, the result's array the blocks' stored values put together), every other buffer as it was entered.
  Every weakly fair execution terminates, and the final memory holds the last contents of the fold at every
  unscoped buffer. Then the readings of the last contents the value claim takes: the two results, the scalar the
  second stretch computes, and the arguments, which nothing writes.
-/
import proofs.«427073_j26087631356629_1_alg».proof.Proof.KIRegion0
import proofs.«427073_j26087631356629_1_alg».proof.Proof.KIRegion1
import proofs.«427073_j26087631356629_1_alg».proof.Proof.Gen.KernelIdeal.Launch
import proofs.«427073_j26087631356629_1_alg».proof.Proof.Gen.KernelIdeal.Regions
import Idealize.ShloMosaic.PureOps.Ideal
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The buffer contents at each boundary: a fold through the program -/

/-- Core `c`'s buffers at launch. -/
abbrev W0 : Dev nD → Valuation τ sig (Elt Ideal) := fun c b => (s₀ m ρ).mem ((c : Dev nD), b)
/-- After the first stretch of host operations (the row lookup). -/
abbrev W1 : Dev nD → Valuation τ sig (Elt Ideal) := fun c => StableHlo.after hostOps0 (W0 m ρ c)
/-- After the second stretch (the scaled difference, the loss scalar, the label row): the first pallas_call's entry. -/
abbrev W2 : Dev nD → Valuation τ sig (Elt Ideal) := fun c => StableHlo.after hostOps0_1 (W1 m ρ c)
/-- The same read at the TensorCore's references. -/
abbrev V2 : (c : Dev nD) → (b : Ref sig .tc) → Buf (Elt Ideal) ((c : Thread nD τ).loc b) := fun c b => W2 m ρ c b
/-- At the first pallas_call's exit: its arrays at what the pipeline leaves, every other buffer as entered. -/
def W3 (c : Dev nD) : Valuation τ sig (Elt Ideal) :=
  Pipeline.withArrays spec0 c (W2 m ρ c) fun w => (dat0 (F := Ideal) (V2 m ρ) c).arrAt w cfg0.N
theorem W3_arr (c : Dev nD) (w : Fin cfg0.W) :
    W3 m ρ c (Proc.devRef .tc (Pipeline.arrRef spec0 w)) = (dat0 (F := Ideal) (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
/-- The same read at the TensorCore's references: the second pallas_call's entry. -/
abbrev V3 : (c : Dev nD) → (b : Ref sig .tc) → Buf (Elt Ideal) ((c : Thread nD τ).loc b) := fun c b => W3 m ρ c b
theorem hF0 (c : Dev nD) (w : Fin cfg0.W) : (dat0 (F := Ideal) (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- At the second pallas_call's exit: its arrays at what the pipeline leaves, every other buffer as entered. -/
def W4 (c : Dev nD) : Valuation τ sig (Elt Ideal) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt Ideal) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What each step of the fold leaves unchanged -/

/-- A buffer no host operation writes is at its launch contents when the first pallas_call is entered. -/
theorem W2_of_launch (c : Dev nD) (r : Ref sig .tc) (h0 : r ∉ (hostOps0_W : List (Ref sig .tc))) (h1 : r ∉ (hostOps0_1_W : List (Ref sig .tc))) :
    W2 m ρ c (Proc.devRef .tc r) = m ((c : Thread nD τ).loc r) :=
  (V2_of m c r h1).trans ((V1_of m c r h0).trans rfl)

/-- An input array of the first pallas_call leaves it as it was entered (nothing is written back to it). -/
theorem W3_in (c : Dev nD) (w : Fin cfg0.W) (hin : (cfg0.win w).isOut = false) :
    W3 m ρ c (Proc.devRef .tc (Pipeline.arrRef spec0 w)) = W2 m ρ c (Proc.devRef .tc (Pipeline.arrRef spec0 w)) :=
  (W3_arr m ρ c w).trans (((dat0 (F := Ideal) (V2 m ρ) c).arrAt_in w hin _).trans (A_eq0 (V2 m ρ) c w))

/-- An input array of the second pallas_call leaves it as it was entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- The first pallas_call changes only its result's array. -/
theorem V3_of_ne_v9 (c : Dev nD) (b : Ref sig .tc) (hb : b ≠ main_v9) : V3 m ρ c b = V2 m ρ c b := by
  by_cases h : ∃ w, Pipeline.arrRef spec0 w = b
  · obtain ⟨w, rfl⟩ := h
    have hw : w ≠ 3 := fun e => hb (by rw [e])
    exact W3_in m ρ c w (by revert hw; revert w; decide)
  · exact W3_of_ne m ρ c b fun w e => h ⟨w, e⟩

/-- The second pallas_call changes only its result's array. -/
theorem V4_of_ne_v10 (c : Dev nD) (b : Ref sig .tc) (hb : b ≠ main_v10) : V4 m ρ c b = V3 m ρ c b := by
  by_cases h : ∃ w, Pipeline.arrRef spec1 w = b
  · obtain ⟨w, rfl⟩ := h
    have hw : w ≠ 3 := fun e => hb (by rw [e])
    exact W4_in m ρ c w (by revert hw; revert w; decide)
  · exact W4_of_ne m ρ c b fun w e => h ⟨w, e⟩

/-! ## The readings of the last contents -/

/-- The first result is what the first pipeline's write-backs leave. -/
theorem W4_v9 (c : Dev nD) : W4 m ρ c (Proc.devRef .tc main_v9) = (dat0 (F := Ideal) (V2 m ρ) c).arrAt 3 cfg0.N :=
  (W4_of_ne m ρ c main_v9 (by decide)).trans (W3_arr m ρ c 3)

/-- The second result is what the second pipeline's write-backs leave. -/
theorem W4_v10 (c : Dev nD) : W4 m ρ c (Proc.devRef .tc main_v10) = (dat1 (V3 m ρ) c).arrAt 3 cfg1.N :=
  W4_arr m ρ c 3

/-- The loss scalar is what the second stretch computed: no pallas_call touches it. -/
theorem W4_v7 (c : Dev nD) : W4 m ρ c (Proc.devRef .tc main_v7) = W2 m ρ c (Proc.devRef .tc main_v7) :=
  (W4_of_ne m ρ c main_v7 (by decide)).trans (W3_of_ne m ρ c main_v7 (by decide))

/-- The second pallas_call's input arrays are arguments: it finds them at their launch contents. -/
theorem V3_main_arg0 (c : Dev nD) : V3 m ρ c main_arg0 = m ((c : Thread nD τ).loc main_arg0) :=
  (V3_of_ne_v9 m ρ c main_arg0 (by decide)).trans (W2_of_launch m ρ c main_arg0 (by decide) (by decide))
theorem V3_main_arg3 (c : Dev nD) : V3 m ρ c main_arg3 = m ((c : Thread nD τ).loc main_arg3) :=
  (V3_of_ne_v9 m ρ c main_arg3 (by decide)).trans (W2_of_launch m ρ c main_arg3 (by decide) (by decide))
theorem V3_main_arg4 (c : Dev nD) : V3 m ρ c main_arg4 = m ((c : Thread nD τ).loc main_arg4) :=
  (V3_of_ne_v9 m ρ c main_arg4 (by decide)).trans (W2_of_launch m ρ c main_arg4 (by decide) (by decide))

/-- Every argument ends as launched: no host operation writes one, and a pallas_call only reads them. -/
theorem W4_main_arg0 (c : Dev nD) : W4 m ρ c (Proc.devRef .tc main_arg0) = m ((c : Thread nD τ).loc main_arg0) :=
  (V4_of_ne_v10 m ρ c main_arg0 (by decide)).trans (V3_main_arg0 m ρ c)
theorem W4_main_arg1 (c : Dev nD) : W4 m ρ c (Proc.devRef .tc main_arg1) = m ((c : Thread nD τ).loc main_arg1) :=
  (V4_of_ne_v10 m ρ c main_arg1 (by decide)).trans <| (V3_of_ne_v9 m ρ c main_arg1 (by decide)).trans (W2_of_launch m ρ c main_arg1 (by decide) (by decide))
theorem W4_main_arg2 (c : Dev nD) : W4 m ρ c (Proc.devRef .tc main_arg2) = m ((c : Thread nD τ).loc main_arg2) :=
  (V4_of_ne_v10 m ρ c main_arg2 (by decide)).trans <| (V3_of_ne_v9 m ρ c main_arg2 (by decide)).trans (W2_of_launch m ρ c main_arg2 (by decide) (by decide))
theorem W4_main_arg3 (c : Dev nD) : W4 m ρ c (Proc.devRef .tc main_arg3) = m ((c : Thread nD τ).loc main_arg3) :=
  (V4_of_ne_v10 m ρ c main_arg3 (by decide)).trans (V3_main_arg3 m ρ c)
theorem W4_main_arg4 (c : Dev nD) : W4 m ρ c (Proc.devRef .tc main_arg4) = m ((c : Thread nD τ).loc main_arg4) :=
  (V4_of_ne_v10 m ρ c main_arg4 (by decide)).trans (V3_main_arg4 m ρ c)

/-! ## The proof data family and the thread state -/

/-- Every pipeline's proof data, each at its pallas_call's entry contents. -/
def pdats : (p : Fin 2) → (c : Dev nD) → Dat τ (Elt Ideal) Unit ℕ (UR sig nD τ) ℕ (Pipeline.pin (pcfgs (F := Ideal)) adm p) c
  | ⟨0, _⟩ => fun c => dat0 (F := Ideal) (V2 m ρ) c
  | ⟨1, _⟩ => fun c => dat1 (V3 m ρ) c
/-- No core owes another anything: no level is assigned. -/
abbrev noL : GSem nD τ sig → Finset Unit := fun _ => ∅
abbrev noLv : GSem nD τ sig → Unit → ℕ := fun _ _ => 0
/-- What rides beside the buffers through every segment: the core's generator register at some state and its dues,
    at nothing. -/
abbrev riding (c : Dev nD) : sProp 𝕄 := iprop((∃ r, prngReg c r) ∗ ∃ W, owes (c : Thread nD τ) (0 : CellTallies nD τ sig Unit) W)
/-- A stretch of host operations as a segment over the unscoped buffers from the contents `W`. -/
abbrev hostSeg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ Variants.none noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev lastState (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- The first pallas_call over the thread state: entered from every unscoped buffer at `W2`, left at `W3`. Its
    arrays are split out of the unscoped buffers and put back at the exit contents; the generator register goes
    into the pipeline's invariant and comes out; nothing is owed; the kernel has no semaphore of its own. -/
def reg0 : Pipeline.RegionSeg (pcfgs (F := Ideal)) adm (pdats m ρ) () defs₀ Variants.none noL noLv 0 where
  win := launch0.win.to₀
  block_pos := launch0.block_pos
  stage_whole := launch0.stage_whole
  K := PEmpty
  osem k := k.elim
  ho := Pipeline.OwnSemFacts.none _
  hbody c := (body_obligation0 (F := Ideal) (V2 m ρ) c).loose
  hwaits := Pipeline.hwaits_of_owed_zero _ _ _ _ noL noLv 0 fun _ _ => rfl
  pre c := iprop(StableHlo.held (c : Thread nD τ) (Pipeline.ucRefs τ sig) (W2 m ρ c) ∗ riding c)
  post c := iprop(StableHlo.held (c : Thread nD τ) (Pipeline.ucRefs τ sig) (W3 m ρ c) ∗ riding c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W3`, left at `W4` (what
    the launch reads at the end). Its body's obligation is stated on each clipped window's part inside its array. -/
def reg1 : Pipeline.RegionSeg (pcfgs (F := Ideal)) adm (pdats m ρ) () defs₀ Variants.none noL noLv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.hwaits_of_owed_zero _ _ _ _ noL noLv 1 fun _ _ => rfl
  pre c := iprop(StableHlo.held (c : Thread nD τ) (Pipeline.ucRefs τ sig) (W3 m ρ c) ∗ riding c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: the two stretches of host operations, each from its boundary's contents,
    then the two pallas_calls. -/
abbrev segs : List (Pipeline.Seg (pcfgs (F := Ideal)) adm (pdats m ρ) () defs₀ Variants.none noL noLv) :=
  [ .host (hostSeg hostOps0 hostOps0_sub hostOps0_fresh (W0 m ρ)),
    .host (hostSeg hostOps0_1 hostOps0_1_sub hostOps0_1_fresh (W1 m ρ)),
    .region (reg0 m ρ),
    .region (reg1 m ρ) ]
/-- The program is the run of the segments: it is the chain of its four items, and so is the segments' run. -/
theorem main_run (c : Dev nD) : main (F := Ideal) c = Pipeline.Seg.run (segs m ρ) := by
  rw [main_chain c, Pipeline.Seg.run_eq_chain]; rfl

set_option backward.isDefEq.respectTransparency.types false in
/-- THE RUN: from any memory with zero counters, every weakly fair execution of the program on the TensorCore
    terminates, nothing faulting, and every final memory holds the last contents of the fold at every unscoped
    buffer. -/
theorem run_all : θ_run defs (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := Ideal)) adm (pdats m ρ) () cellOf_inj emb₁ defs₀ Variants.none noL noLv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := lastState m ρ)
    (hch := ⟨fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.Spec.lean ====
/-
  The two arrays the kernel program computes, as whole-array functions over the extended reals.

  * The updated table: entry (u, f) is the table's entry minus the sum over the batch of the one-hot weight
    [u = label b] times the difference matrix's entry (b, f). The weight compares 32-bit words: the row number u as a
    word against the label's word.
  * The dense layer: entry (p, q) is the sum over k of embedding (p, k) · weight (k, q), plus bias q.
-/
import Idealize.ShloMosaic.PureOps.Ideal
import Idealize.ShloMosaic.Lib.ValueIdx

noncomputable section

open scoped BigOperators

namespace Cert.Spec

open Idealize.ShloMosaic Idealize.ShloMosaic.ValueIdx

/-- The one-hot weight of table row `u` against label word `l`: 1 when the row number, as a 32-bit word, is the
    label's word, else 0. -/
def hot (u : Nat) (l : BitVec 32) : EReal := if BitVec.ofNat 32 u = l then 1 else 0

/-- The updated table in the kernel's form: the table minus the one-hot-weighted column sums of the differences. -/
def newCentersK (lab : IVec ⟨2, ![1, 1024]⟩ 32) (diff : FVec Ideal ⟨2, ![1024, 512]⟩ .f32)
    (cen : FVec Ideal ⟨2, ![100000, 512]⟩ .f32) : FVec Ideal ⟨2, ![100000, 512]⟩ .f32 :=
  fun i =>
    let f : Fin 512 := ⟨(i 1).val, idx2_lt1 i⟩
    cen i - ∑ b : Fin 1024, hot (i 0).val (lab (ix2 (0 : Fin 1) b)) * diff (ix2 b f)

/-- The dense layer: the product of the embedding with the weight matrix plus the bias, entry by entry. -/
def logitsK (emb : FVec Ideal ⟨2, ![1024, 512]⟩ .f32) (w : FVec Ideal ⟨2, ![512, 100000]⟩ .f32)
    (b : FVec Ideal ⟨1, ![100000]⟩ .f32) : FVec Ideal ⟨2, ![1024, 100000]⟩ .f32 :=
  fun i =>
    let p : Fin 1024 := ⟨(i 0).val, idx2_lt0 i⟩
    let q : Fin 100000 := ⟨(i 1).val, idx2_lt1 i⟩
    (∑ k : Fin 512, emb (ix2 p k) * w (ix2 k q)) + b (ix1 q)

end Cert.Spec

end
-- ==== Proof.KIValue0.lean ====
/-
  The first pallas_call's result array in closed form, over the extended reals.

  Each of the 25 grid points stores into its 4000-row block of the result the table's block minus the product of a
  one-hot 4000×1024 matrix (row r of block i against label b: 1 when the 32-bit word of the table row 4000·i + r is
  the label's word, else 0) with the 1024×512 difference matrix. Read at an index that is the table's entry minus the
  sum over the batch of the one-hot weight times the difference entry; the 25 blocks tile the 100000 rows, so after
  the region the whole array is that one function of the label row, the difference matrix and the table.
-/
import proofs.«427073_j26087631356629_1_alg».proof.Proof.KIRegion0
import proofs.«427073_j26087631356629_1_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open scoped BigOperators

/-- The kernel's one product: a 4000×1024 matrix times a 1024×512 one, contracting the 1024 axis. -/
abbrev dot0 : DotDims S4000x1024 S1024x512 S4000x512 := dot_S4000x1024_S1024x512_S4000x512_1_0_0_1_n_n

theorem lhs_dot0_0 (j : S4000x512.Idx) (k : dot_S4000x1024_S1024x512_S4000x512_1_0_0_1_n_n.contr.Idx) :
    ((dot_S4000x1024_S1024x512_S4000x512_1_0_0_1_n_n.lhsIdx j k 0 : Fin _) : ℕ) = (j 0 : ℕ) := by
  simp [DotDims.lhsIdx, dot_S4000x1024_S1024x512_S4000x512_1_0_0_1_n_n]; rfl

theorem lhs_dot0_1 (j : S4000x512.Idx) (k : dot_S4000x1024_S1024x512_S4000x512_1_0_0_1_n_n.contr.Idx) :
    ((dot_S4000x1024_S1024x512_S4000x512_1_0_0_1_n_n.lhsIdx j k 1 : Fin _) : ℕ) = (k ⟨0, by decide⟩ : ℕ) := by
  simp [DotDims.lhsIdx, dot_S4000x1024_S1024x512_S4000x512_1_0_0_1_n_n]; rfl

theorem rhs_dot0_0 (j : S4000x512.Idx) (k : dot_S4000x1024_S1024x512_S4000x512_1_0_0_1_n_n.contr.Idx) :
    ((dot_S4000x1024_S1024x512_S4000x512_1_0_0_1_n_n.rhsIdx j k 0 : Fin _) : ℕ) = (k ⟨0, by decide⟩ : ℕ) := by
  simp [DotDims.rhsIdx, dot_S4000x1024_S1024x512_S4000x512_1_0_0_1_n_n]; rfl

theorem rhs_dot0_1 (j : S4000x512.Idx) (k : dot_S4000x1024_S1024x512_S4000x512_1_0_0_1_n_n.contr.Idx) :
    ((dot_S4000x1024_S1024x512_S4000x512_1_0_0_1_n_n.rhsIdx j k 1 : Fin _) : ℕ) = (j 1 : ℕ) := by
  simp [DotDims.rhsIdx, dot_S4000x1024_S1024x512_S4000x512_1_0_0_1_n_n]; rfl

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot weight as the kernel computes it: the 32-bit compare of the row's word with the label's word, widened
    to a 32-bit integer and converted, is the real 1 when the words agree and the real 0 when they do not. -/
theorem sitofp_cmpi_eq (u : Nat) (l : BitVec 32) :
    FloatOps.sitofp (F := Ideal) .f32 ((IntOp.cmpi .eq (BitVec.ofNat 32 u) l).setWidth 32) = Cert.Spec.hot u l := by
  unfold Cert.Spec.hot
  by_cases h : BitVec.ofNat 32 u = l
  · have e : IntOp.cmpi .eq (BitVec.ofNat 32 u) l = 1#1 := by
      show BitVec.ofBool (BitVec.ofNat 32 u == l) = 1#1
      rw [h, beq_self_eq_true]; rfl
    have e1 : ((1#1 : BitVec 1).setWidth 32).toInt = 1 := by decide
    rw [if_pos h, e]
    show ((((1#1 : BitVec 1).setWidth 32).toInt : ℝ) : EReal) = 1
    rw [e1]; simp
  · have e : IntOp.cmpi .eq (BitVec.ofNat 32 u) l = 0#1 := by
      show BitVec.ofBool (BitVec.ofNat 32 u == l) = 0#1
      rw [beq_eq_false_iff_ne.mpr h]; rfl
    have e0 : ((0#1 : BitVec 1).setWidth 32).toInt = 0 := by decide
    rw [if_neg h, e]
    show ((((0#1 : BitVec 1).setWidth 32).toInt : ℝ) : EReal) = 0
    rw [e0]; simp

/-- The row's word: the block's first row number (the grid coordinate times 4000, as 32-bit words) plus the row
    inside the block is the word of the table's row number (the word arithmetic is the naturals' modulo 2^32). -/
theorem row_word (i : grid0.Coords) (r : Fin 4000) :
    addi (broadcast S4000x1 (Scalar.muli (BitVec.ofNat 32 (i 0).val) 4000#32)) (iota .tc S4000x1 32 [0] iota_S4000x1_d0_w32)
        (ix2 r (0 : Fin 1)) = BitVec.ofNat 32 ((i 0).val * 4000 + r.val) := by
  show IntOp.addi (Scalar.muli (BitVec.ofNat 32 (i 0).val) 4000#32) (iota .tc S4000x1 32 [0] iota_S4000x1_d0_w32 (ix2 r (0 : Fin 1))) = _
  rw [iota_single_apply]
  show BitVec.ofNat 32 (i 0).val * BitVec.ofNat 32 4000 + BitVec.ofNat 32 r.val = _
  rw [BitVec.ofNat_add, BitVec.ofNat_mul]

/-- THE PAYLOAD AT AN INDEX: entry (r, f) of the stored block is the table block's entry minus the sum over the batch
    of the one-hot weight of the block's row r (table row 4000·i + r) against label b, times the difference
    matrix's entry (b, f). The format changes are the identity on the extended reals; the product into the zero
    accumulator is the sum over the contracted axis. -/
theorem pay0_apply (i : grid0.Coords) (lab : Vec Ideal S1x1024 .i32) (dm : Vec Ideal S1024x512 .f32)
    (x : Vec Ideal S4000x512 .f32) (r : Fin 4000) (f : Fin 512) :
    k0_pay1 (F := Ideal) i lab dm x (ix2 r f)
      = x (ix2 r f) - ∑ b : Fin 1024, Cert.Spec.hot ((i 0).val * 4000 + r.val) (lab (ix2 (0 : Fin 1) b)) * dm (ix2 b f) := by
  unfold k0_pay1
  dsimp only
  rw [subf_apply]
  congr 1
  simp only [matmul]
  rw [Ideal.matmul_constant_zero_apply, ← Equiv.sum_comp (contrEquiv1 dot0 1024 rfl rfl).symm]
  refine Finset.sum_congr rfl fun b _ => ?_
  have cb := contrEquiv1_symm_val dot0 1024 rfl rfl b
  have hl : dot0.lhsIdx (ix2 r f) ((contrEquiv1 dot0 1024 rfl rfl).symm b) = ix2 r b := by
    funext ax; apply Fin.ext
    match ax with
    | ⟨0, _⟩ => exact lhs_dot0_0 _ _
    | ⟨1, _⟩ => exact (lhs_dot0_1 _ _).trans cb
  have hr : dot0.rhsIdx (ix2 r f) ((contrEquiv1 dot0 1024 rfl rfl).symm b) = ix2 b f := by
    funext ax; apply Fin.ext
    match ax with
    | ⟨0, _⟩ => exact (rhs_dot0_0 _ _).trans cb
    | ⟨1, _⟩ => exact rhs_dot0_1 _ _
  rw [hl, hr, truncf_apply, truncf_apply, shapeCast_self, shapeCast_self, sitofp_apply, extui_apply]
  congr 1
  show FloatOps.sitofp (F := Ideal) .f32 ((IntOp.cmpi .eq
      (broadcastTo S4000x1024 (addi (broadcast S4000x1 (Scalar.muli (BitVec.ofNat 32 (i 0).val) 4000#32)) (iota .tc S4000x1 32 [0] iota_S4000x1_d0_w32)) broadcasts_S4000x1_S4000x1024 (ix2 r b))
      (broadcastTo S4000x1024 lab broadcasts_S1x1024_S4000x1024 (ix2 r b))).setWidth 32) = _
  rw [broadcastTo_a1_ab_apply, broadcastTo_1b_ab_apply, row_word, sitofp_cmpi_eq]

/-- The updated table at an index whose row is `u` and whose column is `f`. -/
theorem newCentersK_at (lab : IVec S1x1024 32) (diff : FVec Ideal S1024x512 .f32) (cen : FVec Ideal S100000x512 .f32)
    (i : S100000x512.Idx) (u : ℕ) (f : Fin 512) (hu : (i 0).val = u) (hf : (i 1).val = f.val) :
    Cert.Spec.newCentersK lab diff cen i
      = cen i - ∑ b : Fin 1024, Cert.Spec.hot u (lab (ix2 (0 : Fin 1) b)) * diff (ix2 b f) := by
  subst hu
  have e : (⟨(i 1).val, idx2_lt1 i⟩ : Fin 512) = f := Fin.ext hf
  unfold Cert.Spec.newCentersK
  dsimp only
  rw [e]

/-! ## From blocks to the array -/

-- the TensorCore's buffer contents when the region is entered
variable (V : (c : Dev nD) → (b : Ref sig .tc) → Buf (Elt Ideal) ((c : Thread nD τ).loc b))

/-- The printed index maps, decided over the 25 grid points: the label row and the difference matrix are staged at
    block (0, 0); the table's block and the result's block at point `t` are both block (t, 0); the point's one
    coordinate is the point. -/
theorem index_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ (grid0.coords t 0).val = t.val :=
  (by decide +kernel : ∀ t : Fin grid0.N, _)

/-- The label row's staged block is the label row. -/
theorem iblk0_0_apply (c : Dev nD) (t : Fin cfg0.N) (b : Fin 1024) :
    iblk0 V c 0 t (ix2 (0 : Fin 1) b) = (V c main_v8 : S1x1024.Idx → BitVec 32) (ix2 (0 : Fin 1) b) := by
  obtain ⟨e00, e01, -⟩ := index_facts0 t
  show (V c main_v8 : S1x1024.Idx → BitVec 32) (((cfg0.win 0).blk t).view.emb (ix2 (0 : Fin 1) b)) = _
  congr 1
  funext a; apply Fin.ext
  match a with
  | ⟨0, _⟩ => show win0_0.index t (0 : Fin 2) * 1 + 1 * 0 = 0; omega
  | ⟨1, _⟩ => show win0_0.index t (1 : Fin 2) * 1024 + 1 * b.val = b.val; omega

/-- The difference matrix's staged block is the difference matrix. -/
theorem iblk0_1_apply (c : Dev nD) (t : Fin cfg0.N) (b : Fin 1024) (f : Fin 512) :
    iblk0 V c 1 t (ix2 b f) = (V c main_v3 : S1024x512.Idx → EReal) (ix2 b f) := by
  obtain ⟨-, -, e10, e11, -⟩ := index_facts0 t
  show (V c main_v3 : S1024x512.Idx → EReal) (((cfg0.win 1).blk t).view.emb (ix2 b f)) = _
  congr 1
  funext a; apply Fin.ext
  match a with
  | ⟨0, _⟩ => show win0_1.index t (0 : Fin 2) * 1024 + 1 * b.val = b.val; omega
  | ⟨1, _⟩ => show win0_1.index t (1 : Fin 2) * 512 + 1 * f.val = f.val; omega

/-- The table's staged block at point `t` is the table read where the result's block at `t` lies: rows 4000·t …. -/
theorem iblk0_2_apply (c : Dev nD) (t : Fin cfg0.N) (r : Fin 4000) (f : Fin 512) :
    iblk0 V c 2 t (ix2 r f) = (V c main_arg2 : S100000x512.Idx → EReal) (((cfg0.win 3).blk t).view.emb (ix2 r f)) := by
  obtain ⟨-, -, -, -, e20, e21, e30, e31, -⟩ := index_facts0 t
  show (V c main_arg2 : S100000x512.Idx → EReal) (((cfg0.win 2).blk t).view.emb (ix2 r f)) = _
  congr 1

/-- WHAT POINT `t` WRITES BACK is block `t` of the updated table computed from the arrays as the region finds them. -/
theorem flushed0_eq (c : Dev nD) (t : Fin cfg0.N) :
    (dat0 (F := Ideal) V c).flushed 3 t = ((cfg0.win 3).blk t).view.read (Elt Ideal)
      (Cert.Spec.newCentersK (V c main_v8) (V c main_v3) (V c main_arg2)) := by
  show (cfg0.win 3).cut (grid0.coords t) ((dat0 (F := Ideal) V c).after 3 t) = _
  rw [after0_3]
  obtain ⟨-, -, -, -, -, -, e30, e31, eg⟩ := index_facts0 t
  funext j
  obtain ⟨r, f, rfl⟩ : ∃ (r : Fin 4000) (f : Fin 512), j = ix2 r f := ⟨j 0, j 1, eq_ix2 (n0 := 4000) (n1 := 512) j⟩
  show k0_pay1 (F := Ideal) (grid0.coords t) (iblk0 V c 0 t) (iblk0 V c 1 t) (iblk0 V c 2 t) (ix2 r f)
    = Cert.Spec.newCentersK (V c main_v8) (V c main_v3) (V c main_arg2) (((cfg0.win 3).blk t).view.emb (ix2 r f))
  refine (pay0_apply (grid0.coords t) (iblk0 V c 0 t) (iblk0 V c 1 t) (iblk0 V c 2 t) r f).trans ?_
  refine Eq.trans ?_ (newCentersK_at (V c main_v8) (V c main_v3) (V c main_arg2) (((cfg0.win 3).blk t).view.emb (ix2 r f))
    ((grid0.coords t 0).val * 4000 + r.val) f ?_ ?_).symm
  · rw [iblk0_2_apply]
    congr 1
    exact Finset.sum_congr rfl fun b _ => by rw [iblk0_0_apply, iblk0_1_apply]
  · show win0_3.index t (0 : Fin 2) * 4000 + 1 * r.val = (grid0.coords t 0).val * 4000 + r.val
    omega
  · show win0_3.index t (1 : Fin 2) * 512 + 1 * f.val = f.val
    omega

/-- An index of the table is in point `t`'s block iff each coordinate is in the block's range on its axis. -/
theorem mem_blk0 (t : Fin cfg0.N) (i : S100000x512.Idx) :
    i ∈ ((cfg0.win 3).blk t).view.set ↔ ∀ a : Fin 2, win0_3.index t a * S4000x512.size a ≤ (i a).val
      ∧ (i a).val < win0_3.index t a * S4000x512.size a + S4000x512.size a := by
  show i ∈ ((View.whole main_v9).slice (win0_3.rect t)).set ↔ _
  rw [View.set_slice_whole, Rect.mem_set_unit]
  exact Iff.rfl

/-- The blocks cover the table: row `u` lies in the block of point `u / 4000` (100000 = 25 · 4000). -/
theorem cover0 (i : S100000x512.Idx) :
    ∃ t : Fin cfg0.N, (cfg0.win 3).flush t = true ∧ i ∈ ((cfg0.win 3).blk t).view.set := by
  have hi0 : (i 0).val < 100000 := idx2_lt0 i
  have hi1 : (i 1).val < 512 := idx2_lt1 i
  have hN : cfg0.N = 25 := N_0
  have ht : (i 0).val / 4000 < cfg0.N := by rw [hN]; omega
  obtain ⟨-, -, -, -, -, -, e30, e31, -⟩ := index_facts0 ⟨(i 0).val / 4000, ht⟩
  refine ⟨⟨(i 0).val / 4000, ht⟩, flush0_3 _, ?_⟩
  rw [mem_blk0]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, ht⟩ (1 : Fin 2) * 512 ≤ (i 1).val
      ∧ (i 1).val < win0_3.index ⟨(i 0).val / 4000, ht⟩ (1 : Fin 2) * 512 + 512
    rw [e31]; omega

/-- THE FIRST REGION'S RESULT ARRAY after its 25 points: the updated table, as one function of the label row, the
    difference matrix and the table as the region finds them. -/
theorem final0 (c : Dev nD) :
    (dat0 (F := Ideal) V c).arrAt 3 cfg0.N = Cert.Spec.newCentersK (V c main_v8) (V c main_v3) (V c main_arg2) :=
  (dat0 (F := Ideal) V c).arrAt_eq_of_cover 3 _ (fun t _ => flushed0_eq V c t) cover0

end Cert.KernelIdeal.Hand

end
-- ==== Proof.KIValue1.lean ====
/-
  The second pallas_call's result array in closed form. The body's payload at row p, column q of its block is the sum
  over k of the embedding block's (p, k) times the weight block's (k, q), plus the bias block's q: the two narrowing
  format changes are the identity on extended reals and the product accumulates into the zero word. Grid point t
  writes back the columns of its block that lie inside the array, columns 2048 t + q; there the weight and bias
  blocks, filled out with zeros past the array's last column, hold the arrays' own entries, so what is written back
  is the block of ONE whole-array function, the dense layer of the arrays as the region finds them. Column q' of the
  result lies in the block of point q' / 2048 (the last block has 1696 columns: 100000 = 48 · 2048 + 1696), so the
  blocks cover the array and the array ends holding that function.
-/
import proofs.«427073_j26087631356629_1_alg».proof.Proof.KIRegion1
import proofs.«427073_j26087631356629_1_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The payload at an index: a row of the product plus the bias -/

/-- The product's left operand, at result index `j` and contraction index `k`, is read at row `j 0` … -/
theorem lhs_mm_0 (j : S1024x2048.Idx) (k : dot_S1024x512_S512x2048_S1024x2048_1_0_0_1_n_n.contr.Idx) :
    (dot_S1024x512_S512x2048_S1024x2048_1_0_0_1_n_n.lhsIdx j k 0 : ℕ) = j 0 := by
  simp [DotDims.lhsIdx, dot_S1024x512_S512x2048_S1024x2048_1_0_0_1_n_n]; rfl
/-- … and column `k`; -/
theorem lhs_mm_1 (j : S1024x2048.Idx) (k : dot_S1024x512_S512x2048_S1024x2048_1_0_0_1_n_n.contr.Idx) :
    (dot_S1024x512_S512x2048_S1024x2048_1_0_0_1_n_n.lhsIdx j k 1 : ℕ) = k ⟨0, by decide⟩ := by
  simp [DotDims.lhsIdx, dot_S1024x512_S512x2048_S1024x2048_1_0_0_1_n_n]; rfl
/-- the right operand at row `k` … -/
theorem rhs_mm_0 (j : S1024x2048.Idx) (k : dot_S1024x512_S512x2048_S1024x2048_1_0_0_1_n_n.contr.Idx) :
    (dot_S1024x512_S512x2048_S1024x2048_1_0_0_1_n_n.rhsIdx j k 0 : ℕ) = k ⟨0, by decide⟩ := by
  simp [DotDims.rhsIdx, dot_S1024x512_S512x2048_S1024x2048_1_0_0_1_n_n]; rfl
/-- … and column `j 1`. -/
theorem rhs_mm_1 (j : S1024x2048.Idx) (k : dot_S1024x512_S512x2048_S1024x2048_1_0_0_1_n_n.contr.Idx) :
    (dot_S1024x512_S512x2048_S1024x2048_1_0_0_1_n_n.rhsIdx j k 1 : ℕ) = j 1 := by
  simp [DotDims.rhsIdx, dot_S1024x512_S512x2048_S1024x2048_1_0_0_1_n_n]; rfl

/-- The body's payload at `(p, q)`: the sum over `k` of the first block's `(p, k)` times the second's `(k, q)`, plus
    the third's `q`. The narrowing format changes are the identity on extended reals, the product accumulates into
    the zero word, and the contraction's one-axis index set is re-indexed by its coordinate; the bias vector is cast
    to one row and the row copied down the 1024 rows. -/
theorem payload_apply (x0 : Vec Ideal S1024x512 .f32) (x1 : Vec Ideal S512x2048 .f32) (x2 : Vec Ideal S2048 .f32)
    (p : Fin 1024) (q : Fin 2048) :
    k1_pay1 (F := Ideal) x0 x1 x2 (ix2 p q) = (∑ k : Fin 512, x0 (ix2 p k) * x1 (ix2 k q)) + x2 (ix1 q) := by
  unfold k1_pay1
  rw [addf_apply, broadcastTo_1b_ab_apply, shapeCast_a_1a_apply]
  congr 1
  simp only [matmul]
  rw [Ideal.matmul_constant_zero_apply,
    ← Equiv.sum_comp (contrEquiv1 dot_S1024x512_S512x2048_S1024x2048_1_0_0_1_n_n 512 rfl rfl).symm]
  refine Finset.sum_congr rfl fun k _ => ?_
  rw [truncf_apply, truncf_apply]
  have hk := contrEquiv1_symm_val dot_S1024x512_S512x2048_S1024x2048_1_0_0_1_n_n 512 rfl rfl k
  congr 2
  · funext a; apply Fin.ext
    match a with
    | ⟨0, _⟩ => exact lhs_mm_0 _ _
    | ⟨1, _⟩ => exact (lhs_mm_1 _ _).trans hk
  · funext a; apply Fin.ext
    match a with
    | ⟨0, _⟩ => exact (rhs_mm_0 _ _).trans hk
    | ⟨1, _⟩ => exact rhs_mm_1 _ _

/-- The dense layer's entry at an index whose coordinates are `p` and `q`. -/
theorem logitsK_apply (A0 : FVec Ideal ⟨2, ![1024, 512]⟩ .f32) (A3 : FVec Ideal ⟨2, ![512, 100000]⟩ .f32)
    (A4 : FVec Ideal ⟨1, ![100000]⟩ .f32) (i : (⟨2, ![1024, 100000]⟩ : Shape).Idx) (p : Fin 1024) (q : Fin 100000)
    (h0 : (i 0).val = p.val) (h1 : (i 1).val = q.val) :
    Cert.Spec.logitsK A0 A3 A4 i = (∑ k : Fin 512, A0 (ix2 p k) * A3 (ix2 k q)) + A4 (ix1 q) := by
  have hp : (⟨(i 0).val, idx2_lt0 i⟩ : Fin 1024) = p := Fin.ext h0
  have hq : (⟨(i 1).val, idx2_lt1 i⟩ : Fin 100000) = q := Fin.ext h1
  unfold Cert.Spec.logitsK
  simp only [hp, hq]

-- the TensorCore's buffer contents when the region is entered
variable (V : (c : Dev nD) → (b : Ref sig .tc) → Buf (Elt Ideal) ((c : Thread nD τ).loc b))

/-! ## From blocks to the array -/

/-- The printed index maps and cuts, decided over the 49 grid points: the embedding's block is the whole array; the
    weight, bias and result blocks at point `t` start at column `2048 t`; the weight and bias blocks are cut to as
    many columns as the result's, which runs to the block's end or to the array's last column, whichever comes first. -/
theorem block_index_facts : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 1) = t.val
    ∧ win1_3.index t (0 : Fin 2) = 0 ∧ win1_3.index t (1 : Fin 2) = t.val
    ∧ win1_1.xsize (grid1.coords t) (0 : Fin 2) = 512
    ∧ win1_1.xsize (grid1.coords t) (1 : Fin 2) = win1_3.xsize (grid1.coords t) (1 : Fin 2)
    ∧ win1_2.xsize (grid1.coords t) (0 : Fin 1) = win1_3.xsize (grid1.coords t) (1 : Fin 2)
    ∧ win1_3.xsize (grid1.coords t) (0 : Fin 2) = 1024
    ∧ t.val * 2048 + win1_3.xsize (grid1.coords t) (1 : Fin 2) = min (t.val * 2048 + 2048) 100000 :=
  (by decide +kernel : ∀ t : Fin grid1.N, _)

/-- An index of the result array is in point `t`'s block iff each coordinate is among the block's coordinates that
    lie inside the array on that axis. -/
theorem mem_result_block (t : Fin cfg1.N) (i : S1024x100000.Idx) :
    i ∈ ((cfg1.win 3).blk t).view.set ↔ ∀ a : Fin 2, win1_3.index t a * S1024x2048.size a ≤ (i a).val
      ∧ (i a).val < win1_3.index t a * S1024x2048.size a + win1_3.xsize (grid1.coords t) a := by
  show i ∈ ((View.whole main_v10).slice (win1_3.rect t)).set ↔ _
  rw [View.set_slice_whole, Rect.mem_set_unit]
  exact Iff.rfl

/-- Every index of the result array is in some point's block: column `q'` in that of point `q' / 2048`. -/
theorem result_covered (i : S1024x100000.Idx) :
    ∃ t : Fin cfg1.N, (cfg1.win 3).flush t = true ∧ i ∈ ((cfg1.win 3).blk t).view.set := by
  have hi0 : (i 0).val < 1024 := idx2_lt0 i
  have hi1 : (i 1).val < 100000 := idx2_lt1 i
  have hN : cfg1.N = 49 := rfl
  obtain ⟨t, ht⟩ : ∃ t : Fin cfg1.N, t.val = (i 1).val / 2048 := ⟨⟨(i 1).val / 2048, by rw [hN]; omega⟩, rfl⟩
  refine ⟨t, flush1_3 t, ?_⟩
  rw [mem_result_block]
  obtain ⟨-, -, -, -, -, e5, e6, -, -, -, e10, e11⟩ := block_index_facts t
  intro a
  match a with
  | ⟨0, _⟩ =>
    show win1_3.index t (0 : Fin 2) * 1024 ≤ (i 0).val ∧ (i 0).val < win1_3.index t (0 : Fin 2) * 1024 + win1_3.xsize (grid1.coords t) (0 : Fin 2)
    omega
  | ⟨1, _⟩ =>
    show win1_3.index t (1 : Fin 2) * 2048 ≤ (i 1).val ∧ (i 1).val < win1_3.index t (1 : Fin 2) * 2048 + win1_3.xsize (grid1.coords t) (1 : Fin 2)
    omega

/-- What point `t` writes back is block `t` of the dense layer of the arrays as the region finds them: on a column
    inside the array the filled weight and bias blocks are the arrays' own entries at column `2048 t + q`. -/
theorem flushed_eq (c : Dev nD) (t : Fin cfg1.N) :
    (dat1 V c).flushed 3 t = ((cfg1.win 3).blk t).view.read (Elt Ideal)
      (Cert.Spec.logitsK (V c main_arg0) (V c main_arg3) (V c main_arg4)) := by
  show (cfg1.win 3).cut (grid1.coords t) ((dat1 V c).after 3 t) = _
  rw [after1_3]
  obtain ⟨e0, e1, e2, e3, e4, e5, e6, e7, e8, e9, e10, e11⟩ := block_index_facts t
  funext j
  have hj0 : (j 0).val < win1_3.xsize (grid1.coords t) (0 : Fin 2) := (j 0).isLt
  have hj1 : (j 1).val < win1_3.xsize (grid1.coords t) (1 : Fin 2) := (j 1).isLt
  have hp : (j 0).val < 1024 := by omega
  have hq : (j 1).val < 2048 := by omega
  have hQ : t.val * 2048 + (j 1).val < 100000 := by omega
  have hx : (cfg1.win 3).xinj (grid1.coords t) j = ix2 (⟨(j 0).val, hp⟩ : Fin 1024) (⟨(j 1).val, hq⟩ : Fin 2048) := by
    funext a
    match a with
    | ⟨0, _⟩ => rfl
    | ⟨1, _⟩ => rfl
  show k1_pay1 (F := Ideal) (iblk1 V c 0 t) (wblk V c t) (bblk V c t) ((cfg1.win 3).xinj (grid1.coords t) j) = _
  rw [hx]
  refine (payload_apply (iblk1 V c 0 t) (wblk V c t) (bblk V c t) _ _).trans ?_
  -- the embedding's block is its whole array
  have h0 : ∀ k : Fin 512, iblk1 V c 0 t (ix2 (⟨(j 0).val, hp⟩ : Fin 1024) k) = V c main_arg0 (ix2 (⟨(j 0).val, hp⟩ : Fin 1024) k) := by
    intro k
    show V c main_arg0 (((cfg1.win 0).blk t).view.emb (ix2 (⟨(j 0).val, hp⟩ : Fin 1024) k)) = V c main_arg0 (ix2 (⟨(j 0).val, hp⟩ : Fin 1024) k)
    refine congrArg _ (funext fun a => Fin.ext ?_)
    match a with
    | ⟨0, _⟩ => show win1_0.index t (0 : Fin 2) * 1024 + 1 * (j 0).val = (j 0).val; omega
    | ⟨1, _⟩ => show win1_0.index t (1 : Fin 2) * 512 + 1 * k.val = k.val; omega
  -- the weight block, filled out, on a column inside the array is the array's own column
  have h1 : ∀ k : Fin 512, wblk V c t (ix2 k (⟨(j 1).val, hq⟩ : Fin 2048))
      = V c main_arg3 (ix2 k (⟨t.val * 2048 + (j 1).val, hQ⟩ : Fin 100000)) := by
    intro k
    have hm : (cfg1.win 1).moved (grid1.coords t) (ix2 k (⟨(j 1).val, hq⟩ : Fin 2048)) = true := by
      refine ((cfg1.win 1).moved_iff (grid1.coords t) _).mpr fun a => ?_
      match a with
      | ⟨0, _⟩ => show k.val < win1_1.xsize (grid1.coords t) (0 : Fin 2); omega
      | ⟨1, _⟩ => show (j 1).val < win1_1.xsize (grid1.coords t) (1 : Fin 2); omega
    unfold wblk Window.fill
    rw [dif_pos hm]
    show V c main_arg3 (((cfg1.win 1).blk t).view.emb _) = _
    refine congrArg _ (funext fun a => Fin.ext ?_)
    match a with
    | ⟨0, _⟩ => show win1_1.index t (0 : Fin 2) * 512 + 1 * k.val = k.val; omega
    | ⟨1, _⟩ => show win1_1.index t (1 : Fin 2) * 2048 + 1 * (j 1).val = t.val * 2048 + (j 1).val; omega
  -- and so is the bias block
  have h2 : bblk V c t (ix1 (⟨(j 1).val, hq⟩ : Fin 2048)) = V c main_arg4 (ix1 (⟨t.val * 2048 + (j 1).val, hQ⟩ : Fin 100000)) := by
    have hm : (cfg1.win 2).moved (grid1.coords t) (ix1 (⟨(j 1).val, hq⟩ : Fin 2048)) = true := by
      refine ((cfg1.win 2).moved_iff (grid1.coords t) _).mpr fun a => ?_
      match a with
      | ⟨0, _⟩ => show (j 1).val < win1_2.xsize (grid1.coords t) (0 : Fin 1); omega
    unfold bblk Window.fill
    rw [dif_pos hm]
    show V c main_arg4 (((cfg1.win 2).blk t).view.emb _) = _
    refine congrArg _ (funext fun a => Fin.ext ?_)
    match a with
    | ⟨0, _⟩ => show win1_2.index t (0 : Fin 1) * 2048 + 1 * (j 1).val = t.val * 2048 + (j 1).val; omega
  -- the result's element sits at row `j 0`, column `2048 t + j 1` of its array
  refine Eq.trans ?_ (logitsK_apply (V c main_arg0) (V c main_arg3) (V c main_arg4) (((cfg1.win 3).blk t).view.emb j)
    (⟨(j 0).val, hp⟩ : Fin 1024) (⟨t.val * 2048 + (j 1).val, hQ⟩ : Fin 100000) ?_ ?_).symm
  · rw [h2]
    exact congrArg (· + _) (Finset.sum_congr rfl fun k _ => by rw [h0 k, h1 k])
  · show win1_3.index t (0 : Fin 2) * 1024 + 1 * (j 0).val = (j 0).val; omega
  · show win1_3.index t (1 : Fin 2) * 2048 + 1 * (j 1).val = t.val * 2048 + (j 1).val; omega

/-- The second region's result array after the run: the dense layer of the arrays the region finds. -/
theorem final1 (c : Dev nD) :
    (dat1 V c).arrAt 3 cfg1.N = Cert.Spec.logitsK (V c main_arg0) (V c main_arg3) (V c main_arg4) :=
  (dat1 V c).arrAt_eq_of_cover 3 (Cert.Spec.logitsK (V c main_arg0) (V c main_arg3) (V c main_arg4))
    (fun t _ => flushed_eq V c t) result_covered

end Cert.KernelIdeal.Hand

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.KHost.lean ====
/-
  The kernel program's host operations as named terms: the rows of the table taken at the labels, the scaled
  difference matrix the first kernel subtracts, the mean squared distance, and the label row — each as a function
  of the arguments' contents — and the taken rows read entry by entry when every label is a row number of the table.
-/
import proofs.«427073_j26087631356629_1_alg».proof.Proof.Gen.KernelIdeal.Launch
import proofs.«427073_j26087631356629_1_alg».proof.Proof.LibScatterGather
import Idealize.ShloMosaic.Lib.StableHlo.Run
import Idealize.ShloMosaic.PureOps.Ideal
import Idealize.ShloMosaic.Lib.ValueIdx
import Idealize.ShloMosaic.Lib.StableHlo.Predicate
import Idealize.ShloMosaic.Lib.ReduceAll

noncomputable section

namespace Cert.KernelIdeal.Hand

open Cert.KernelIdeal Cert.KernelIdeal.Gen
open Idealize.ShloMosaic Idealize.ShloMosaic.TcCoe
open Idealize.ShloMosaic.ValueIdx Idealize.ShloMosaic.StableHlo.Predicate

/-! ## The host operations' values -/

/-- The row numbers the gather reads, as a column: a negative label is moved up by the table's height, any other kept. -/
def idxK (labels : IVec S1024 32) : IVec S1024x1 32 :=
  broadcastInDim S1024x1 ![0] bcast_S1024_S1024x1_0
    (select (cmpi .slt labels (broadcastInDim S1024 ![] bcast_S_S1024 (constantI S_ 32 0#32)))
      (addi labels (broadcastInDim S1024 ![] bcast_S_S1024 (constantI S_ 32 100000#32))) labels)

/-- Per row, whether its row number is inside the table: the conjunction over the column's one entry of
    0 ≤ number and number ≤ 99999. -/
def maskK (idx : IVec S1024x1 32) : IVec S1024 1 :=
  Host.reduce IntOp.andi
    (andi (cmpi .sge idx (broadcastInDim S1024x1 ![] bcast_S_S1024x1 (constantI S_ 32 0#32)))
      (cmpi .sle idx (broadcastInDim S1024x1 ![0, 1] bcast_S1x1_S1024x1_0_1
        (broadcastInDim S1x1 ![1] bcast_S1_S1x1_1 (constantI S1 32 99999#32)))))
    (constantI S_ 1 1#1) reducesTo_S1024x1_S1024_d1 h_S_

/-- The table's rows taken at the labels: the gathered row where the row number is inside the table, a NaN row elsewhere. -/
def takeK (centers : FVec Ideal S100000x512 .f32) (labels : IVec S1024 32) : FVec Ideal S1024x512 .f32 :=
  select (broadcastInDim S1024x512 ![0] bcast_S1024_S1024x512_0 (maskK (idxK labels)))
    (Host.gather gather_S100000x512_S1024x1_S1024x512_1_0_n_n_0_1_1512 centers (idxK labels))
    (broadcastInDim S1024x512 ![] bcast_S_S1024x512 (constant (F := Ideal) S_ .f32 0x7FC00000#32))

/-- Half the difference of the taken rows and the embedding. -/
def diffK (emb v0 : FVec Ideal S1024x512 .f32) : FVec Ideal S1024x512 .f32 :=
  mulf (broadcastInDim S1024x512 ![] bcast_S_S1024x512 (constant (F := Ideal) S_ .f32 0x3F000000#32)) (subf v0 emb)

/-- The sum of the squared differences of the embedding and the taken rows, over 524288. -/
def lossK (emb v0 : FVec Ideal S1024x512 .f32) : FVec Ideal S_ .f32 :=
  Host.divf (Host.reduceAdd (mulf (subf emb v0) (subf emb v0)) (constant (F := Ideal) S_ .f32 0x00000000#32) reducesTo_S1024x512_S_d0_1 h_S_)
    (constant (F := Ideal) S_ .f32 0x49000000#32)

/-- The buffers' contents after the two stretches of host operations, from contents `W`. -/
abbrev H2 (W : Valuation τ sig (Elt Ideal)) : Valuation τ sig (Elt Ideal) :=
  StableHlo.after (hostOps0_1 (F := Ideal)) (StableHlo.after (hostOps0 (F := Ideal)) W)

set_option maxHeartbeats 1000000 in
/-- The scaled difference matrix the first kernel reads is half the taken rows minus the embedding. -/
theorem host_v3 (W : Valuation τ sig (Elt Ideal)) :
    H2 W (Proc.devRef .tc main_v3) = diffK (W (Proc.devRef .tc main_arg0)) (takeK (W (Proc.devRef .tc main_arg2)) (W (Proc.devRef .tc main_arg1))) := by
  after_results
  rfl

set_option maxHeartbeats 1000000 in
/-- The loss the program returns is the mean squared distance of the embedding and the taken rows. -/
theorem host_v7 (W : Valuation τ sig (Elt Ideal)) :
    H2 W (Proc.devRef .tc main_v7) = lossK (W (Proc.devRef .tc main_arg0)) (takeK (W (Proc.devRef .tc main_arg2)) (W (Proc.devRef .tc main_arg1))) := by
  after_results
  rfl

/-! ## The label row and the arguments after the host operations -/

/-- The label row is the labels reshaped: entry (0, b) is label b (the same row-major position). -/
theorem host_v8_apply (W : Valuation τ sig (Elt Ideal)) (b : Fin 1024) :
    H2 W (Proc.devRef .tc main_v8) (ix2 (0 : Fin 1) b) = W (Proc.devRef .tc main_arg1) (ix1 b) := by
  after_results
  show shapeCast S1x1024 (W (Proc.devRef .tc main_arg1)) shapeCasts_S1024_S1x1024 (ix2 (0 : Fin 1) b) = _
  unfold shapeCast
  refine congrArg _ (Shape.reshapeEquiv_eq_of_rowMajor _ ?_)
  show (S1024.rowMajor (ix1 b)).val = (S1x1024.rowMajor (ix2 (0 : Fin 1) b)).val
  rw [Shape.rowMajor_val_one, Shape.rowMajor_val_two]
  show b.val = 0 * 1024 + b.val
  omega

/-- No host operation writes an argument. -/
theorem host_arg0 (W : Valuation τ sig (Elt Ideal)) : H2 W (Proc.devRef .tc main_arg0) = W (Proc.devRef .tc main_arg0) := by
  after_results
theorem host_arg1 (W : Valuation τ sig (Elt Ideal)) : H2 W (Proc.devRef .tc main_arg1) = W (Proc.devRef .tc main_arg1) := by
  after_results
theorem host_arg2 (W : Valuation τ sig (Elt Ideal)) : H2 W (Proc.devRef .tc main_arg2) = W (Proc.devRef .tc main_arg2) := by
  after_results
theorem host_arg3 (W : Valuation τ sig (Elt Ideal)) : H2 W (Proc.devRef .tc main_arg3) = W (Proc.devRef .tc main_arg3) := by
  after_results
theorem host_arg4 (W : Valuation τ sig (Elt Ideal)) : H2 W (Proc.devRef .tc main_arg4) = W (Proc.devRef .tc main_arg4) := by
  after_results

/-! ## The taken rows under in-range labels -/

/-- A left fold by conjunction from 1 over 1s is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_of_all_one f l fun n hn => h n (List.mem_cons_of_mem _ hn)

/-- A word that reads, signed, as a row number of the table reads the same unsigned. -/
theorem toNat_of_inrange {l : BitVec 32} (h : 0 ≤ l.toInt ∧ l.toInt < 100000) : l.toNat < 100000 ∧ l.toInt = l.toNat := by
  have h2 : l.toNat < 2 ^ 31 := by
    by_contra hc
    have : l.toInt < 0 := by
      rw [BitVec.toInt_eq_msb_cond]
      have hm : l.msb = true := by
        rw [BitVec.msb_eq_true_iff_two_mul_ge]; omega
      rw [hm]; simp; have := l.isLt; omega
    omega
  have e := toInt_eq_toNat_of_lt h2
  exact ⟨by omega, e⟩

variable (lab : IVec S1024 32)

/-- The row number of a nonnegative label is the label: the comparison with 0 is false, so the select keeps it. -/
theorem idxK_apply (hlab : ∀ e, 0 ≤ (lab e).toInt ∧ (lab e).toInt < 100000) (b : Fin 1024) : idxK lab (ixP b) = lab (ix1 b) := by
  unfold idxK
  rw [bcast_col1]
  have e : (Shape.Idx.ofFin b : S1024.Idx) = ix1 b := (Shape.Idx.eq_ofFin (ix1 b)).symm
  rw [e, select_apply]
  have h0 : cmpi .slt lab (broadcastInDim S1024 ![] bcast_S_S1024 (constantI S_ 32 0#32)) (ix1 b) = 0#1 := by
    show BitVec.ofBool ((lab (ix1 b)).slt 0#32) = 0#1
    have hh : (lab (ix1 b)).slt 0#32 = false := by
      simp only [BitVec.slt, BitVec.toInt_zero, decide_eq_false_iff_not, not_lt]
      exact (hlab _).1
    rw [hh]; rfl
  rw [h0, select_zero]

/-- Every row's number is inside the table: the conjunction starts at 1 and meets only 1s. -/
theorem maskK_one (hlab : ∀ e, 0 ≤ (lab e).toInt ∧ (lab e).toInt < 100000) (j : S1024.Idx) : maskK (idxK lab) j = 1#1 := by
  unfold maskK
  rw [Host.reduce_eq_foldl]
  refine foldl_andi_of_all_one _ _ fun i _ => ?_
  have hi : ∃ p : Fin 1024, i = ixP p := ⟨i 0, by
    funext a
    match a with
    | ⟨0, _⟩ => rfl
    | ⟨1, _⟩ => exact Fin.ext (by have h : (i 1).val < 1 := (i 1).isLt; show (i 1).val = 0; omega)⟩
  obtain ⟨p, rfl⟩ := hi
  show IntOp.andi (IntOp.cmpi .sge (idxK lab (ixP p)) 0#32) (IntOp.cmpi .sle (idxK lab (ixP p)) 99999#32) = 1#1
  rw [idxK_apply lab hlab]
  obtain ⟨hlt, he⟩ := toNat_of_inrange (hlab (ix1 p))
  exact IntOp.andi_eq_one.2 ⟨(sge_iff_toNat (by omega) (by decide)).2 (Nat.zero_le _),
    (sle_iff_toNat (by omega) (by decide)).2 (by show _ ≤ 99999; omega)⟩

/-- THE TAKEN ROWS: when every label is a row number of the table, row b of the result is the table's row label b. -/
theorem takeK_apply (cen : FVec Ideal S100000x512 .f32) (lab : IVec S1024 32)
    (hlab : ∀ e, 0 ≤ (lab e).toInt ∧ (lab e).toInt < 100000) (b : Fin 1024) (f : Fin 512) :
    takeK cen lab (ix2 b f) = cen (ix2 (⟨(lab (ix1 b)).toInt.toNat, by have := hlab (ix1 b); omega⟩ : Fin 100000) f) := by
  unfold takeK
  rw [select_apply]
  have hm : broadcastInDim S1024x512 ![0] bcast_S1024_S1024x512_0 (maskK (idxK lab)) (ix2 b f) = 1#1 := maskK_one lab hlab _
  rw [hm, select_one, Cert.LibSG.gather_rows _ rfl rfl rfl rfl rfl rfl rfl cen (idxK lab) b f (by decide)]
  obtain ⟨hlt, he⟩ := toNat_of_inrange (hlab (ix1 b))
  have hmin : min (idxK lab (ixP b)).toInt.toNat (100000 - 1) = (lab (ix1 b)).toInt.toNat := by
    rw [idxK_apply lab hlab]; omega
  congr 1
  funext a
  match a with
  | ⟨0, _⟩ => exact Fin.ext hmin
  | ⟨1, _⟩ => rfl

end Cert.KernelIdeal.Hand

end
-- ==== Proof.KIValues.lean ====
/-
  The run of the idealized kernel program with its results named: the final memory holds the dense layer of the
  launch's embedding, weights and bias; the loss scalar; the table updated by the one-hot-weighted column sums of
  the scaled differences; and every argument as launched. Each is the run's last contents read at one buffer, the
  pallas_call's result rewritten by its pipeline's value theorem and its operands walked back through the fold to
  the launch memory.
-/
import proofs.«427073_j26087631356629_1_alg».proof.Proof.KIRun
import proofs.«427073_j26087631356629_1_alg».proof.Proof.KIValue0
import proofs.«427073_j26087631356629_1_alg».proof.Proof.KIValue1
import proofs.«427073_j26087631356629_1_alg».proof.Proof.KHost
import proofs.«427073_j26087631356629_1_alg».proof.Proof.Spec
import Idealize.ShloMosaic.PureOps.Ideal
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The first pallas_call's operands, read off the fold -/

/-- The scaled difference matrix the first pallas_call finds is the second stretch's, a function of the launch
    contents of the embedding, the table and the labels. -/
theorem V2_v3 (c : Dev nD) : V2 m ρ c main_v3
    = diffK (m ((c : Thread nD τ).loc main_arg0)) (takeK (m ((c : Thread nD τ).loc main_arg2)) (m ((c : Thread nD τ).loc main_arg1))) :=
  host_v3 (W0 m ρ c)

/-- The table it finds is the launch's. -/
theorem V2_arg2 (c : Dev nD) : V2 m ρ c main_arg2 = m ((c : Thread nD τ).loc main_arg2) :=
  W2_of_launch m ρ c main_arg2 (by decide) (by decide)

/-- The label row it finds holds the labels' words, entry by entry. -/
theorem labRow_apply (c : Dev nD) (b : Fin 1024) :
    V2 m ρ c main_v8 (ValueIdx.ix2 (0 : Fin 1) b) = m ((c : Thread nD τ).loc main_arg1) (ValueIdx.ix1 b) :=
  host_v8_apply (W0 m ρ c) b

/-! ## The run, its results named -/

/-- Every weakly fair execution terminates, and the final memory holds: the dense layer of the launch's embedding,
    weights and bias; the loss scalar of the launch's embedding and the looked-up rows; the table updated by the
    label row and the scaled differences; and every argument as launched. -/
theorem run_values : θ_run defs (onTc (τ := τ) (main (F := Ideal))) ⟨m, fun _ => 0, ρ⟩ (fun r => ∀ c : Dev nD,
      r.2.mem ((c.tc : Thread nD τ).loc main_v10) = Cert.Spec.logitsK (m ((c.tc : Thread nD τ).loc main_arg0)) (m ((c.tc : Thread nD τ).loc main_arg3)) (m ((c.tc : Thread nD τ).loc main_arg4))
      ∧ r.2.mem ((c.tc : Thread nD τ).loc main_v7) = lossK (m ((c.tc : Thread nD τ).loc main_arg0)) (takeK (m ((c.tc : Thread nD τ).loc main_arg2)) (m ((c.tc : Thread nD τ).loc main_arg1)))
      ∧ r.2.mem ((c.tc : Thread nD τ).loc main_v9) = Cert.Spec.newCentersK (V2 m ρ c main_v8)
          (diffK (m ((c.tc : Thread nD τ).loc main_arg0)) (takeK (m ((c.tc : Thread nD τ).loc main_arg2)) (m ((c.tc : Thread nD τ).loc main_arg1))))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨-- the dense layer: the second pipeline's result, at its entry contents, which are the launch's
     (h c _ (mem_uc main_v10 (by decide))).trans <| (W4_v10 m ρ c).trans <| (final1 (V3 m ρ) c).trans <| by
        rw [V3_main_arg0 m ρ c, V3_main_arg3 m ρ c, V3_main_arg4 m ρ c],
     -- the loss scalar: the second stretch's, untouched since
     (h c _ (mem_uc main_v7 (by decide))).trans <| (W4_v7 m ρ c).trans (host_v7 (W0 m ρ c)),
     -- the updated table: the first pipeline's result, at its entry contents
     (h c _ (mem_uc main_v9 (by decide))).trans <| (W4_v9 m ρ c).trans <| (final0 (V2 m ρ) c).trans <| by
        rw [V2_v3 m ρ c, V2_arg2 m ρ c],
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand

end
-- ==== Proof.RefRun.lean ====
/-
  The run of the idealized reference program, read back.

  The program is a straight line of host operations: its entry function calls the row-lookup function once (which
  itself calls the three-way selection function once) and then runs twenty-four operations of its own. A call executes
  the callee's body on the operands, each value of the body in a buffer of its own, so the whole program is ONE list of
  forty-seven operations: the twenty-three of the row lookup over the call's buffers, then the entry function's own.
  From any memory with zero counters every weakly fair execution terminates, each result buffer holding the
  operations' composed pure term of the argument buffers' launch contents, and the arguments unchanged.

  One intermediate value and the three results, as terms of the arguments:
  * the looked-up rows (intermediate: the loss and the updated table both read it): per batch row the label, wrapped
    once by the table's height when negative, selects a table row; a row whose wrapped label falls outside the table
    reads as the not-a-number word instead;
  * the loss: the sum over all entries of the squared difference between the embedding and the looked-up rows, divided
    by the entry count;
  * the updated table: the table with, accumulated at each batch row's wrapped label, minus one half of the difference
    between the looked-up rows and the embedding;
  * the dense layer: the embedding times the weight matrix, plus the bias broadcast along the batch.
-/
import proofs.«427073_j26087631356629_1_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's forty-seven operations, in order: the row lookup's twenty-three over the call's buffers (the
    three-way selection's one among them, writing the wrapped labels), then the entry function's twenty-four. -/
abbrev ops : List (HloOp τ sig (Elt F)) :=
  [ TRef.nullary main_call0.c (constantI S_ 32 0#32),
    TRef.unary main_call0.c main_call0.v0 (broadcastInDim S1024 ![] bcast_S_S1024),
    TRef.binary (.of main_arg1) main_call0.v0 main_call0.v1 (cmpi .slt),
    TRef.nullary main_call0.c_0 (constantI S_ 32 100000#32),
    TRef.unary main_call0.c_0 main_call0.v2 (broadcastInDim S1024 ![] bcast_S_S1024),
    TRef.binary (.of main_arg1) main_call0.v2 main_call0.v3 addi,
    TRef.ternary main_call0.v1 main_call0.v3 (.of main_arg1) main_call0.call0.v0 select,
    TRef.unary main_call0.call0.v0 main_call0.v5 (broadcastInDim S1024x1 ![0] bcast_S1024_S1024x1_0),
    TRef.nullary main_call0.c_1 (constantI S1 32 99999#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg2) main_call0.v5 main_call0.v13 (fun x i => Host.gather gather_S100000x512_S1024x1_S1024x512_1_0_n_n_0_1_1512 x i),
    TRef.unary main_call0.v12 main_call0.v14 (broadcastInDim S1024x512 ![0] bcast_S1024_S1024x512_0),
    TRef.nullary main_call0.cst (constant S_ .f32 0x7FC00000#32),
    TRef.unary main_call0.cst main_call0.v15 (broadcastInDim S1024x512 ![] bcast_S_S1024x512),
    TRef.ternary main_call0.v14 main_call0.v13 main_call0.v15 main_call0.v16 select,
    binary main_v0 main_arg0 main_v1 (subf : (⟨S1024x512, .f32⟩ : BufTy).Contents (Elt F) → (⟨S1024x512, .f32⟩ : BufTy).Contents (Elt F) → (⟨S1024x512, .f32⟩ : BufTy).Contents (Elt F)),
    nullary main_cst (constant S_ .f32 0x3F000000#32),
    unary main_cst main_v2 (broadcastInDim S1024x512 ![] bcast_S_S1024x512 : (⟨S_, .f32⟩ : BufTy).Contents (Elt F) → (⟨S1024x512, .f32⟩ : BufTy).Contents (Elt F)),
    binary main_v2 main_v1 main_v3 (mulf : (⟨S1024x512, .f32⟩ : BufTy).Contents (Elt F) → (⟨S1024x512, .f32⟩ : BufTy).Contents (Elt F) → (⟨S1024x512, .f32⟩ : BufTy).Contents (Elt F)),
    unary main_v3 main_v4 (Host.negf : (⟨S1024x512, .f32⟩ : BufTy).Contents (Elt F) → (⟨S1024x512, .f32⟩ : BufTy).Contents (Elt F)),
    nullary main_c (constantI S_ 32 0#32),
    unary main_c main_v5 (broadcastInDim S1024 ![] bcast_S_S1024 : (⟨S_, .i32⟩ : BufTy).Contents (Elt F) → (⟨S1024, .i32⟩ : BufTy).Contents (Elt F)),
    binary main_arg1 main_v5 main_v6 (cmpi .slt : (⟨S1024, .i32⟩ : BufTy).Contents (Elt F) → (⟨S1024, .i32⟩ : BufTy).Contents (Elt F) → (⟨S1024, .i1⟩ : BufTy).Contents (Elt F)),
    nullary main_c_0 (constantI S_ 32 100000#32),
    unary main_c_0 main_v7 (broadcastInDim S1024 ![] bcast_S_S1024 : (⟨S_, .i32⟩ : BufTy).Contents (Elt F) → (⟨S1024, .i32⟩ : BufTy).Contents (Elt F)),
    binary main_arg1 main_v7 main_v8 (addi : (⟨S1024, .i32⟩ : BufTy).Contents (Elt F) → (⟨S1024, .i32⟩ : BufTy).Contents (Elt F) → (⟨S1024, .i32⟩ : BufTy).Contents (Elt F)),
    ternary main_v6 main_v8 main_arg1 main_v9 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v9 main_v10 (broadcastInDim S1024x1 ![0] bcast_S1024_S1024x1_0 : (⟨S1024, .i32⟩ : BufTy).Contents (Elt F) → (⟨S1024x1, .i32⟩ : BufTy).Contents (Elt F)),
    ternary main_arg2 main_v10 main_v4 main_v11 ((fun x i u => Host.scatterAdd scatter_S100000x512_S1024x1_S1024x512_1_0_0_1 x i u) : (⟨S100000x512, .f32⟩ : BufTy).Contents (Elt F) → (⟨S1024x1, .i32⟩ : BufTy).Contents (Elt F) → (⟨S1024x512, .f32⟩ : BufTy).Contents (Elt F) → (⟨S100000x512, .f32⟩ : BufTy).Contents (Elt F)),
    binary main_arg0 main_v0 main_v12 (subf : (⟨S1024x512, .f32⟩ : BufTy).Contents (Elt F) → (⟨S1024x512, .f32⟩ : BufTy).Contents (Elt F) → (⟨S1024x512, .f32⟩ : BufTy).Contents (Elt F)),
    binary main_v12 main_v12 main_v13 (mulf : (⟨S1024x512, .f32⟩ : BufTy).Contents (Elt F) → (⟨S1024x512, .f32⟩ : BufTy).Contents (Elt F) → (⟨S1024x512, .f32⟩ : BufTy).Contents (Elt F)),
    nullary main_cst_1 (constant S_ .f32 0x00000000#32),
    binary main_v13 main_cst_1 main_v14 ((fun x v => Host.reduceAdd x v reducesTo_S1024x512_S_d0_1 h_S_) : (⟨S1024x512, .f32⟩ : BufTy).Contents (Elt F) → (⟨S_, .f32⟩ : BufTy).Contents (Elt F) → (⟨S_, .f32⟩ : BufTy).Contents (Elt F)),
    nullary main_cst_2 (constant S_ .f32 0x49000000#32),
    binary main_v14 main_cst_2 main_v15 (Host.divf : (⟨S_, .f32⟩ : BufTy).Contents (Elt F) → (⟨S_, .f32⟩ : BufTy).Contents (Elt F) → (⟨S_, .f32⟩ : BufTy).Contents (Elt F)),
    binary main_arg0 main_arg3 main_v16 ((fun l r => Host.dotGeneral dot_S1024x512_S512x100000_S1024x100000_1_0_0_1_n_n none l r) : (⟨S1024x512, .f32⟩ : BufTy).Contents (Elt F) → (⟨S512x100000, .f32⟩ : BufTy).Contents (Elt F) → (⟨S1024x100000, .f32⟩ : BufTy).Contents (Elt F)),
    unary main_arg4 main_v17 (broadcastInDim S1x100000 ![1] bcast_S100000_S1x100000_1 : (⟨S100000, .f32⟩ : BufTy).Contents (Elt F) → (⟨S1x100000, .f32⟩ : BufTy).Contents (Elt F)),
    unary main_v17 main_v18 (broadcastInDim S1024x100000 ![0, 1] bcast_S1x100000_S1024x100000_0_1 : (⟨S1x100000, .f32⟩ : BufTy).Contents (Elt F) → (⟨S1024x100000, .f32⟩ : BufTy).Contents (Elt F)),
    binary main_v16 main_v18 main_v19 (addf : (⟨S1024x100000, .f32⟩ : BufTy).Contents (Elt F) → (⟨S1024x100000, .f32⟩ : BufTy).Contents (Elt F) → (⟨S1024x100000, .f32⟩ : BufTy).Contents (Elt F)) ]

/-- The entry function is that straight line: the two called functions' definitions unfolded at their calls and the
    call's buffer record at its fields, both sides are one chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub .., binary_bufs_sub .., binary_bufs_sub .., nullary_bufs_sub .., binary_bufs_sub ..,
    nullary_bufs_sub .., binary_bufs_sub .., binary_bufs_sub .., unary_bufs_sub .., unary_bufs_sub .., binary_bufs_sub ..⟩

/-! ## The results as terms of the arguments -/

/-- The looked-up rows. The index column is the labels, each negative one raised by the table's height, as a column;
    a batch row is in range when its index is at least zero and at most the last row number (the conjunction reduced
    along the column's one entry); an in-range row reads the table's row at its index, any other the not-a-number
    word. -/
def takeT (centers : FVec Ideal S100000x512 .f32) (labels : IVec S1024 32) : FVec Ideal S1024x512 .f32 :=
  select
    (broadcastInDim S1024x512 ![0] bcast_S1024_S1024x512_0
      (Host.reduce IntOp.andi
        (andi
          (cmpi .sge
            (broadcastInDim S1024x1 ![0] bcast_S1024_S1024x1_0
              (select (cmpi .slt labels (broadcastInDim S1024 ![] bcast_S_S1024 (constantI S_ 32 0#32)))
                (addi labels (broadcastInDim S1024 ![] bcast_S_S1024 (constantI S_ 32 100000#32))) labels))
            (broadcastInDim S1024x1 ![] bcast_S_S1024x1 (constantI S_ 32 0#32)))
          (cmpi .sle
            (broadcastInDim S1024x1 ![0] bcast_S1024_S1024x1_0
              (select (cmpi .slt labels (broadcastInDim S1024 ![] bcast_S_S1024 (constantI S_ 32 0#32)))
                (addi labels (broadcastInDim S1024 ![] bcast_S_S1024 (constantI S_ 32 100000#32))) labels))
            (broadcastInDim S1024x1 ![0, 1] bcast_S1x1_S1024x1_0_1
              (broadcastInDim S1x1 ![1] bcast_S1_S1x1_1 (constantI S1 32 99999#32)))))
        (constantI S_ 1 1#1) reducesTo_S1024x1_S1024_d1 h_S_))
    (Host.gather gather_S100000x512_S1024x1_S1024x512_1_0_n_n_0_1_1512 centers
      (broadcastInDim S1024x1 ![0] bcast_S1024_S1024x1_0
        (select (cmpi .slt labels (broadcastInDim S1024 ![] bcast_S_S1024 (constantI S_ 32 0#32)))
          (addi labels (broadcastInDim S1024 ![] bcast_S_S1024 (constantI S_ 32 100000#32))) labels)))
    (broadcastInDim S1024x512 ![] bcast_S_S1024x512 (constant S_ .f32 0x7FC00000#32))

/-- The loss: the squared differences between the embedding and the rows `v0`, summed over both axes from zero, divided
    by the entry count 524288. -/
def lossT (emb v0 : FVec Ideal S1024x512 .f32) : FVec Ideal S_ .f32 :=
  Host.divf
    (Host.reduceAdd (mulf (subf emb v0) (subf emb v0)) (constant S_ .f32 0x00000000#32) reducesTo_S1024x512_S_d0_1 h_S_)
    (constant S_ .f32 0x49000000#32)

/-- The updated table: the table with, accumulated at each batch row's index (the label, a negative one raised by the
    table's height), the negative of one half times the difference between the rows `v0` and the embedding. -/
def centersT (centers : FVec Ideal S100000x512 .f32) (labels : IVec S1024 32) (emb v0 : FVec Ideal S1024x512 .f32) :
    FVec Ideal S100000x512 .f32 :=
  Host.scatterAdd scatter_S100000x512_S1024x1_S1024x512_1_0_0_1 centers
    (broadcastInDim S1024x1 ![0] bcast_S1024_S1024x1_0
      (select (cmpi .slt labels (broadcastInDim S1024 ![] bcast_S_S1024 (constantI S_ 32 0#32)))
        (addi labels (broadcastInDim S1024 ![] bcast_S_S1024 (constantI S_ 32 100000#32))) labels))
    (Host.negf (mulf (broadcastInDim S1024x512 ![] bcast_S_S1024x512 (constant S_ .f32 0x3F000000#32)) (subf v0 emb)))

/-- The dense layer: the embedding contracted with the weight matrix along the feature axis, plus the bias as a row
    repeated along the batch. -/
def logitsT (emb : FVec Ideal S1024x512 .f32) (w : FVec Ideal S512x100000 .f32) (b : FVec Ideal S100000 .f32) :
    FVec Ideal S1024x100000 .f32 :=
  addf (Host.dotGeneral dot_S1024x512_S512x100000_S1024x100000_1_0_0_1_n_n none emb w)
    (broadcastInDim S1024x100000 ![0, 1] bcast_S1x100000_S1024x100000_0_1
      (broadcastInDim S1x100000 ![1] bcast_S100000_S1x100000_1 b))

/-! ## The run -/

/-! Each buffer's contents after the forty-seven operations, from any contents `V`: the fold read at that buffer —
every operation's result at its own buffer is its function's value, at any other buffer what was there — leaves the
result's term of `V` at the argument buffers (the typed references' transports are the identity at these literal
references), and an argument buffer, which no operation writes, as it was. -/

theorem v19_eq (V : Valuation τ sig (Elt Ideal)) :
    after ops V (main_v19 : DevRef τ sig) = logitsT (V (main_arg0 : DevRef τ sig)) (V (main_arg3 : DevRef τ sig)) (V (main_arg4 : DevRef τ sig)) := by
  after_results_simp
  rfl

theorem v15_eq (V : Valuation τ sig (Elt Ideal)) :
    after ops V (main_v15 : DevRef τ sig) = lossT (V (main_arg0 : DevRef τ sig)) (takeT (V (main_arg2 : DevRef τ sig)) (V (main_arg1 : DevRef τ sig))) := by
  after_results_simp
  rfl

theorem v11_eq (V : Valuation τ sig (Elt Ideal)) :
    after ops V (main_v11 : DevRef τ sig)
      = centersT (V (main_arg2 : DevRef τ sig)) (V (main_arg1 : DevRef τ sig)) (V (main_arg0 : DevRef τ sig)) (takeT (V (main_arg2 : DevRef τ sig)) (V (main_arg1 : DevRef τ sig))) := by
  after_results_simp
  rfl

theorem arg0_eq (V : Valuation τ sig (Elt Ideal)) :
    after ops V (main_arg0 : DevRef τ sig) = (V (main_arg0 : DevRef τ sig)) := by
  after_results_simp

theorem arg1_eq (V : Valuation τ sig (Elt Ideal)) :
    after ops V (main_arg1 : DevRef τ sig) = (V (main_arg1 : DevRef τ sig)) := by
  after_results_simp

theorem arg2_eq (V : Valuation τ sig (Elt Ideal)) :
    after ops V (main_arg2 : DevRef τ sig) = (V (main_arg2 : DevRef τ sig)) := by
  after_results_simp

theorem arg3_eq (V : Valuation τ sig (Elt Ideal)) :
    after ops V (main_arg3 : DevRef τ sig) = (V (main_arg3 : DevRef τ sig)) := by
  after_results_simp

theorem arg4_eq (V : Valuation τ sig (Elt Ideal)) :
    after ops V (main_arg4 : DevRef τ sig) = (V (main_arg4 : DevRef τ sig)) := by
  after_results_simp

/-- From any memory with zero counters: every weakly fair execution of the program terminates, each result buffer at
    its term of the argument buffers' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19) = logitsT (m ((c.tc : Thread nD τ).loc main_arg0)) (m ((c.tc : Thread nD τ).loc main_arg3)) (m ((c.tc : Thread nD τ).loc main_arg4))
      ∧ r.2.mem ((c.tc : Thread nD τ).loc main_v15) = lossT (m ((c.tc : Thread nD τ).loc main_arg0)) (takeT (m ((c.tc : Thread nD τ).loc main_arg2)) (m ((c.tc : Thread nD τ).loc main_arg1)))
      ∧ r.2.mem ((c.tc : Thread nD τ).loc main_v11) = centersT (m ((c.tc : Thread nD τ).loc main_arg2)) (m ((c.tc : Thread nD τ).loc main_arg1)) (m ((c.tc : Thread nD τ).loc main_arg0)) (takeT (m ((c.tc : Thread nD τ).loc main_arg2)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v19).trans (v19_eq _), (h c main_v15).trans (v15_eq _),
      (h c main_v11).trans (v11_eq _), (h c main_arg0).trans (arg0_eq _), (h c main_arg1).trans (arg1_eq _),
      (h c main_arg2).trans (arg2_eq _), (h c main_arg3).trans (arg3_eq _), (h c main_arg4).trans (arg4_eq _)⟩)
    (run_seq scopedRefs_eq scopedSems_eq defs main (fun _ => ops) main_eq (fun _ => ops_sub) m ρ)

end Cert.ReferenceIdeal.Hand

end
-- ==== Proof.RefRead.lean ====
/-
  The idealized reference program's result terms READ AT AN ENTRY.

  * The dense layer at entry (p, q): a contraction along one axis is, over the extended reals, the plain sum over that
    axis's coordinate k of embedding (p, k) · weight (k, q); the bias, laid as a row and repeated along the batch, reads
    the bias at q. So the dense-layer term is the whole-array function that states exactly this.
  * The index column: the labels, each one that is signed-below zero raised by the table's height, laid as a column.
    At a batch row whose label is not negative the selection keeps the label, so the column reads the label itself.
-/
import proofs.«427073_j26087631356629_1_alg».proof.Proof.RefRun
import proofs.«427073_j26087631356629_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.ReferenceIdeal.Hand

open Cert.ReferenceIdeal Cert.ReferenceIdeal.Gen Idealize.ShloMosaic Idealize.ShloMosaic.ValueIdx

/-! ## Indices: the two spellings of a coordinate index agree -/

/-- The rank-1 index at a coordinate, in either spelling. -/
theorem ofFin_eq_ix1 {n : Nat} (k : Fin n) : Shape.Idx.ofFin k = ix1 k := by
  funext a; match a with | ⟨0, _⟩ => exact Fin.ext rfl

/-- Row `p`, column `q` of a rectangle, in either spelling. -/
theorem ij_eq_ix2 {n m : Nat} (p : Fin n) (q : Fin m) : StableHlo.Predicate.ij p q = ix2 p q := by
  funext a; match a with | ⟨0, _⟩ => rfl | ⟨1, _⟩ => rfl

/-! ## The contraction's index maps, axis by axis

The dense layer contracts the embedding's axis 1 with the weight's axis 0; the embedding's axis 0 is the result's axis
0 and the weight's axis 1 the result's axis 1. -/

theorem lhs_dot_S1024x512_S512x100000_S1024x100000_1_0_0_1_n_n_0 (j : S1024x100000.Idx) (k : dot_S1024x512_S512x100000_S1024x100000_1_0_0_1_n_n.contr.Idx) :
    ((dot_S1024x512_S512x100000_S1024x100000_1_0_0_1_n_n).lhsIdx j k 0 : ℕ) = j 0 := by
  simp [DotDims.lhsIdx, dot_S1024x512_S512x100000_S1024x100000_1_0_0_1_n_n]; rfl
theorem lhs_dot_S1024x512_S512x100000_S1024x100000_1_0_0_1_n_n_1 (j : S1024x100000.Idx) (k : dot_S1024x512_S512x100000_S1024x100000_1_0_0_1_n_n.contr.Idx) :
    ((dot_S1024x512_S512x100000_S1024x100000_1_0_0_1_n_n).lhsIdx j k 1 : ℕ) = k ⟨0, by decide⟩ :=
  DotDims.lhsIdx_val_of_single _ (cl := 1) rfl j k
theorem rhs_dot_S1024x512_S512x100000_S1024x100000_1_0_0_1_n_n_0 (j : S1024x100000.Idx) (k : dot_S1024x512_S512x100000_S1024x100000_1_0_0_1_n_n.contr.Idx) :
    ((dot_S1024x512_S512x100000_S1024x100000_1_0_0_1_n_n).rhsIdx j k 0 : ℕ) = k ⟨0, by decide⟩ :=
  DotDims.rhsIdx_val_of_single _ (cr := 0) rfl j k
theorem rhs_dot_S1024x512_S512x100000_S1024x100000_1_0_0_1_n_n_1 (j : S1024x100000.Idx) (k : dot_S1024x512_S512x100000_S1024x100000_1_0_0_1_n_n.contr.Idx) :
    ((dot_S1024x512_S512x100000_S1024x100000_1_0_0_1_n_n).rhsIdx j k 1 : ℕ) = j 1 := by
  simp [DotDims.rhsIdx, dot_S1024x512_S512x100000_S1024x100000_1_0_0_1_n_n]; rfl

/-- The contraction index is the one coordinate along the contracted axis, of extent 512. -/
def contrEquiv : dot_S1024x512_S512x100000_S1024x100000_1_0_0_1_n_n.contr.Idx ≃ Fin 512 :=
  contrEquiv1 dot_S1024x512_S512x100000_S1024x100000_1_0_0_1_n_n 512 rfl rfl

/-! ## The dense layer read at an entry -/

/-- The contraction at entry (p, q): the sum over k of embedding (p, k) · weight (k, q). -/
theorem dot_apply (emb : FVec Ideal S1024x512 .f32) (w : FVec Ideal S512x100000 .f32) (p : Fin 1024) (q : Fin 100000) :
    Host.dotGeneral dot_S1024x512_S512x100000_S1024x100000_1_0_0_1_n_n none emb w (ix2 p q) = ∑ k : Fin 512, emb (ix2 p k) * w (ix2 k q) := by
  simp only [Host.dotGeneral]
  rw [Ideal.dotGeneral_apply, ← Equiv.sum_comp contrEquiv.symm]
  refine Finset.sum_congr rfl fun c _ => ?_
  have hl : (dot_S1024x512_S512x100000_S1024x100000_1_0_0_1_n_n).lhsIdx (ix2 p q) (contrEquiv.symm c) = ix2 p c := by
    funext a
    match a with
    | ⟨0, _⟩ => exact Fin.ext (lhs_dot_S1024x512_S512x100000_S1024x100000_1_0_0_1_n_n_0 _ _)
    | ⟨1, _⟩ => exact Fin.ext ((lhs_dot_S1024x512_S512x100000_S1024x100000_1_0_0_1_n_n_1 _ _).trans (contrEquiv1_symm_val _ 512 rfl rfl c))
  have hr : (dot_S1024x512_S512x100000_S1024x100000_1_0_0_1_n_n).rhsIdx (ix2 p q) (contrEquiv.symm c) = ix2 c q := by
    funext a
    match a with
    | ⟨0, _⟩ => exact Fin.ext ((rhs_dot_S1024x512_S512x100000_S1024x100000_1_0_0_1_n_n_0 _ _).trans (contrEquiv1_symm_val _ 512 rfl rfl c))
    | ⟨1, _⟩ => exact Fin.ext (rhs_dot_S1024x512_S512x100000_S1024x100000_1_0_0_1_n_n_1 _ _)
  rw [hl, hr]

/-- The bias, laid as a row and repeated along the batch, at entry (p, q): the bias at q. -/
theorem bias_apply (b : FVec Ideal S100000 .f32) (p : Fin 1024) (q : Fin 100000) :
    broadcastInDim S1024x100000 ![0, 1] bcast_S1x100000_S1024x100000_0_1
      (broadcastInDim S1x100000 ![1] bcast_S100000_S1x100000_1 b) (ix2 p q) = b (ix1 q) := by
  rw [← ij_eq_ix2, ← ofFin_eq_ix1]
  exact StableHlo.Predicate.bcast_cols bcast_S100000_S1x100000_1 bcast_S1x100000_S1024x100000_0_1 b p q

/-- The dense-layer term is the whole-array function: at entry (p, q) the sum over k of embedding (p, k) · weight (k, q),
    plus the bias at q. -/
theorem logitsT_eq (emb : FVec Ideal S1024x512 .f32) (w : FVec Ideal S512x100000 .f32) (b : FVec Ideal S100000 .f32) :
    logitsT emb w b = Cert.Spec.logitsK emb w b := by
  funext i
  obtain ⟨p, q, rfl⟩ : ∃ (p : Fin 1024) (q : Fin 100000), i = ValueIdx.ix2 p q := ⟨i 0, i 1, ValueIdx.eq_ix2 i⟩
  unfold logitsT
  rw [addf_apply, dot_apply, bias_apply]
  rfl

/-! ## The index column -/

/-- The index column: the labels, each one that is signed-below the zero word raised by the table's height, as a column. -/
def idxT (labels : IVec S1024 32) : IVec S1024x1 32 :=
  broadcastInDim S1024x1 ![0] bcast_S1024_S1024x1_0
    (select (cmpi .slt labels (broadcastInDim S1024 ![] bcast_S_S1024 (constantI S_ 32 0#32)))
      (addi labels (broadcastInDim S1024 ![] bcast_S_S1024 (constantI S_ 32 100000#32))) labels)

/-- The looked-up rows over the index column: in range where the index is at least zero and at most the last row number,
    there the table's row at the index, elsewhere the not-a-number word. -/
theorem takeT_idx (centers : FVec Ideal S100000x512 .f32) (labels : IVec S1024 32) :
    takeT centers labels
      = select
          (broadcastInDim S1024x512 ![0] bcast_S1024_S1024x512_0
            (Host.reduce IntOp.andi
              (andi (cmpi .sge (idxT labels) (broadcastInDim S1024x1 ![] bcast_S_S1024x1 (constantI S_ 32 0#32)))
                (cmpi .sle (idxT labels)
                  (broadcastInDim S1024x1 ![0, 1] bcast_S1x1_S1024x1_0_1
                    (broadcastInDim S1x1 ![1] bcast_S1_S1x1_1 (constantI S1 32 99999#32)))))
              (constantI S_ 1 1#1) reducesTo_S1024x1_S1024_d1 h_S_))
          (Host.gather gather_S100000x512_S1024x1_S1024x512_1_0_n_n_0_1_1512 centers (idxT labels))
          (broadcastInDim S1024x512 ![] bcast_S_S1024x512 (constant S_ .f32 0x7FC00000#32)) := rfl

/-- The updated table over the index column: the table with, accumulated at each batch row's index, the negative of one
    half times the difference between the rows `v0` and the embedding. -/
theorem centersT_idx (cen : FVec Ideal S100000x512 .f32) (lab : IVec S1024 32) (emb v0 : FVec Ideal S1024x512 .f32) :
    centersT cen lab emb v0
      = Host.scatterAdd scatter_S100000x512_S1024x1_S1024x512_1_0_0_1 cen (idxT lab)
          (Host.negf (mulf (broadcastInDim S1024x512 ![] bcast_S_S1024x512 (constant S_ .f32 0x3F000000#32)) (subf v0 emb))) := rfl

/-- A word that is not negative is not signed-below the zero word. -/
theorem slt_zero_of_nonneg (x : BitVec 32) (h0 : 0 ≤ x.toInt) : IntOp.cmpi .slt x 0#32 = 0#1 := by
  unfold IntOp.cmpi
  have hz : (0#32 : BitVec 32).toInt = 0 := by decide
  have hlt : ¬ x.toInt < (0#32 : BitVec 32).toInt := by rw [hz]; omega
  simp only [BitVec.slt, decide_eq_false hlt]
  rfl

/-- At a batch row whose label is not negative the index column reads the label: the selection keeps a label that is not
    signed-below zero, and the column laid from the vector reads, at row `e`, the vector at `e`. -/
theorem idxT_apply (lab : IVec S1024 32) (e : Fin 1024) (h0 : 0 ≤ (lab (ValueIdx.ix1 e)).toInt) :
    idxT lab (StableHlo.Predicate.ixP e) = lab (ValueIdx.ix1 e) := by
  unfold idxT
  rw [StableHlo.Predicate.bcast_col1, ofFin_eq_ix1, select_apply]
  have hc : cmpi .slt lab (broadcastInDim S1024 ![] bcast_S_S1024 (constantI S_ 32 0#32)) (ix1 e) = 0#1 :=
    slt_zero_of_nonneg (lab (ix1 e)) h0
  rw [hc, select_zero]

end Cert.ReferenceIdeal.Hand

end
-- ==== Proof.Algebra.lean ====
/-
  The law that joins the two forms of the updated table, over the extended reals.

  The kernel subtracts from a table entry the sum over the whole batch of a 0/1 weight times a difference; the reference adds
  to it the negated differences of exactly those batch rows whose position is that table row. With every difference a REAL
  number the two agree: a weight 1 keeps its term, a weight 0 drops it, and negation passes through a sum of reals. (Over the
  extended reals it does not pass through a sum in general: −(⊤ + ⊥) = ⊤ but −⊤ + −⊥ = ⊥. This is where finiteness of the
  inputs is used.)
-/
import Idealize.ShloMosaic.PureOps.Ideal

noncomputable section

open scoped BigOperators

namespace Cert.Algebra

/-- A finite sum of reals, read in the extended reals, is the sum of the readings. -/
theorem coe_sum {ι : Type} (s : Finset ι) (x : ι → ℝ) : ((∑ e ∈ s, x e : ℝ) : EReal) = ∑ e ∈ s, (x e : EReal) := by
  classical
  induction s using Finset.induction_on with
  | empty => simp
  | insert a s ha ih => rw [Finset.sum_insert ha, Finset.sum_insert ha, EReal.coe_add, ih]

/-- Subtracting the 0/1-weighted sum of real terms is adding the negated terms of the selected indices. -/
theorem sub_weighted_sum {n : ℕ} (c : EReal) (h : Fin n → EReal) (x : Fin n → ℝ) (P : Fin n → Prop) [DecidablePred P]
    (hh : ∀ e, h e = if P e then 1 else 0) :
    c - ∑ e : Fin n, h e * (x e : EReal) = c + ∑ e ∈ Finset.univ.filter P, -((x e : ℝ) : EReal) := by
  have hL : ∑ e : Fin n, h e * (x e : EReal) = ((∑ e : Fin n, (if P e then x e else 0) : ℝ) : EReal) := by
    rw [coe_sum]
    refine Finset.sum_congr rfl fun e _ => ?_
    rw [hh e]
    split
    · rw [one_mul]
    · rw [zero_mul, EReal.coe_zero]
  have hR : ∑ e ∈ Finset.univ.filter P, -((x e : ℝ) : EReal) = ((∑ e : Fin n, (if P e then -(x e) else 0) : ℝ) : EReal) := by
    rw [coe_sum, Finset.sum_filter]
    refine Finset.sum_congr rfl fun e _ => ?_
    split
    · rw [EReal.coe_neg]
    · rw [EReal.coe_zero]
  rw [hL, hR, sub_eq_add_neg, ← EReal.coe_neg]
  congr 2
  rw [← Finset.sum_neg_distrib]
  refine Finset.sum_congr rfl fun e _ => ?_
  split <;> simp

end Cert.Algebra

end
-- ==== Proof.ScatterBridge.lean ====
/-
  The updated table: the reference's accumulating scatter is the kernel's one-hot form.

  Entry (u, f) of the scatter is the table's entry plus the sum of the updates −D (e, f) over the batch rows e whose position,
  read signed, is u. Entry (u, f) of the one-hot form is the table's entry minus the sum over ALL batch rows of
  [word u = label word e] · D (e, f). For a label in [0, 100000) the position IS the label and "the label's word is the word
  of u" says the same as "the label, read signed, is u"; and with every D (e, f) a real number the two sums agree
  (negation passes through a sum of reals).
-/
import proofs.«427073_j26087631356629_1_alg».proof.Proof.Spec
import proofs.«427073_j26087631356629_1_alg».proof.Proof.Algebra
import proofs.«427073_j26087631356629_1_alg».proof.Proof.LibScatterGather
import Idealize.ShloMosaic.PureOps.Ideal
import Idealize.ShloMosaic.Lib.ValueIdx
import Idealize.ShloMosaic.Lib.StableHlo.Predicate

noncomputable section

open scoped BigOperators

namespace Cert.ScatterBridge

open Idealize.ShloMosaic Idealize.ShloMosaic.ValueIdx Idealize.ShloMosaic.StableHlo.Predicate

/-- For a row number below 100000 and a label in [0, 100000): the label's word is the row number's word exactly when the
    label, read signed, is the row number. -/
theorem word_eq_iff (u : ℕ) (hu : u < 100000) (l : BitVec 32) (h0 : 0 ≤ l.toInt) (h1 : l.toInt < 100000) :
    BitVec.ofNat 32 u = l ↔ l.toInt = (u : ℤ) := by
  constructor
  · intro e
    rw [← e]
    exact toInt_ofNat_small u (by omega)
  · intro e
    apply BitVec.eq_of_toInt_eq
    rw [toInt_ofNat_small u (by omega)]
    exact e.symm

/-- The accumulating scatter of the negated differences is the one-hot form. -/
theorem scatter_eq_onehot (d : ScatterDims ⟨2, ![100000, 512]⟩ ⟨2, ![1024, 1]⟩ ⟨2, ![1024, 512]⟩)
    (huw : d.updateWindowDims = [1]) (hiw : d.insertedWindowDims = [0]) (hsd : d.scatterDimsToOperandDims = [0])
    (hivd : d.indexVectorDim = 1)
    (cen : FVec Ideal ⟨2, ![100000, 512]⟩ .f32) (lab : IVec ⟨1, ![1024]⟩ 32)
    (labRow : IVec ⟨2, ![1, 1024]⟩ 32) (idx : IVec ⟨2, ![1024, 1]⟩ 32) (D : FVec Ideal ⟨2, ![1024, 512]⟩ .f32)
    (hrow : ∀ e : Fin 1024, labRow (ix2 (0 : Fin 1) e) = lab (ix1 e))
    (hidx : ∀ e : Fin 1024, idx (ixP e) = lab (ix1 e))
    (hlab : ∀ e : Fin 1024, 0 ≤ (lab (ix1 e)).toInt ∧ (lab (ix1 e)).toInt < 100000)
    (hD : ∀ j, ∃ r : ℝ, D j = r) :
    Host.scatterAdd (F := Ideal) d cen idx (Host.negf D) = Cert.Spec.newCentersK labRow D cen := by
  funext i
  obtain ⟨u, f, rfl⟩ : ∃ (u : Fin 100000) (f : Fin 512), i = ix2 u f := ⟨i 0, i 1, eq_ix2 i⟩
  rw [Cert.LibSG.scatterAdd_rows d huw hiw hsd hivd cen idx (Host.negf D) u f]
  unfold Cert.Spec.newCentersK
  choose x hx using fun e : Fin 1024 => hD (ix2 e f)
  have hsum := Cert.Algebra.sub_weighted_sum (cen (ix2 u f)) (fun e : Fin 1024 => Cert.Spec.hot u.val (labRow (ix2 (0 : Fin 1) e))) x
    (fun e : Fin 1024 => (idx (ixP e)).toInt = (u.val : ℤ)) (fun e => by
      unfold Cert.Spec.hot
      rw [hrow e, hidx e]
      by_cases h : (lab (ix1 e)).toInt = (u.val : ℤ)
      · rw [if_pos h, if_pos ((word_eq_iff u.val u.isLt _ (hlab e).1 (hlab e).2).2 h)]
      · rw [if_neg h, if_neg (fun h' => h ((word_eq_iff u.val u.isLt _ (hlab e).1 (hlab e).2).1 h'))])
  have hL : (∑ b : Fin 1024, Cert.Spec.hot (((ix2 u f : (⟨2, ![100000, 512]⟩ : Shape).Idx) 0).val) (labRow (ix2 (0 : Fin 1) b))
        * D (ix2 b (⟨((ix2 u f : (⟨2, ![100000, 512]⟩ : Shape).Idx) 1).val, idx2_lt1 _⟩ : Fin 512)))
      = ∑ e : Fin 1024, Cert.Spec.hot u.val (labRow (ix2 (0 : Fin 1) e)) * (x e : EReal) :=
    Finset.sum_congr rfl fun e _ => by rw [← hx e]
  have hR : (∑ e ∈ Finset.univ.filter (fun e : Fin 1024 => (idx (ixP e)).toInt = (u.val : ℤ)), Host.negf D (ix2 e f))
      = ∑ e ∈ Finset.univ.filter (fun e : Fin 1024 => (idx (ixP e)).toInt = (u.val : ℤ)), -((x e : ℝ) : EReal) :=
    Finset.sum_congr rfl fun e _ => by rw [← hx e]; rfl
  rw [hR, ← hsum]
  exact congrArg (fun s => cen (ix2 u f) - s) hL.symm

end Cert.ScatterBridge

end
-- ==== Proof.PreDecode.lean ====
/-
  What the precondition says, read back from its printed form: every entry of the embedding and of the table is a real
  number (its absolute value is below +∞, so it is neither infinity), and every label, read as a signed 32-bit integer, lies
  in [0, 100000).
-/
import proofs.«427073_j26087631356629_1_alg».proof.Pre_finite_inputs
import proofs.«427073_j26087631356629_1_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreDecode

open Idealize.ShloMosaic Cert.Pre_finite_inputs

instance : Subsingleton S_.Idx := ⟨fun a b => funext fun d => d.elim0⟩

/-- The pattern 0x7F800000 denotes +∞. -/
theorem ofBits_inf : Ideal.ofBits .f32 0x7F800000#32 = ⊤ := by simp [Ideal.ofBits, Ideal.ieee]

/-- An extended real whose absolute value max x (−x) is below +∞ is a real: +∞ fails at once, and −∞ has −(−∞) = +∞. -/
theorem real_of_abs_lt_top (x : EReal) (h : Ideal.cmp .olt (max x (-x)) ⊤ = 1#1) : ∃ r : ℝ, x = r := by
  unfold Ideal.cmp at h
  have h' : max x (-x) < ⊤ := of_decide_eq_true ((StableHlo.Predicate.ofBool_eq_one_iff _).1 h)
  induction x using EReal.rec
  · simp at h'
  · exact ⟨_, rfl⟩
  · simp at h'

/-- The same at an index of an array compared elementwise against the broadcast +∞ word. -/
theorem finite_at {s : Shape} (hb : S_.BroadcastsInDim s ![]) (x : FVec Ideal s .f32) (i : s.Idx)
    (h : cmpf .olt (Host.absf x) (broadcastInDim s ![] hb (constant S_ .f32 0x7F800000#32)) i = 1#1) :
    ∃ r : ℝ, x i = r := by
  apply real_of_abs_lt_top
  have e : cmpf .olt (Host.absf x) (broadcastInDim s ![] hb (constant S_ .f32 0x7F800000#32)) i
      = Ideal.cmp .olt (max (x i) (-(x i))) (Ideal.ofBits .f32 0x7F800000#32) := rfl
  rw [e, ofBits_inf] at h
  exact h

/-- A word that compares signed-greater-or-equal to the zero word is nonnegative as a signed integer. -/
theorem toInt_nonneg_of_sge {a : BitVec 32} (h : IntOp.cmpi .sge a 0#32 = 1#1) : 0 ≤ a.toInt := by
  have h1 : (0#32).sle a = true := (StableHlo.Predicate.ofBool_eq_one_iff _).1 h
  have h2 := BitVec.sle_iff_toInt_le.1 h1
  simpa using h2

/-- A word that compares signed-less to the word 100000 is below 100000 as a signed integer. -/
theorem toInt_lt_of_slt {a : BitVec 32} (h : IntOp.cmpi .slt a 100000#32 = 1#1) : a.toInt < 100000 := by
  have h1 : a.slt 100000#32 = true := (StableHlo.Predicate.ofBool_eq_one_iff _).1 h
  have h2 := BitVec.slt_iff_toInt_lt.1 h1
  have h3 : (100000#32 : BitVec 32).toInt = 100000 := by decide
  omega

/-- The precondition decoded. -/
theorem decode (emb : FVec Ideal S1024x512 .f32) (lab : IVec S1024 32) (cen : FVec Ideal S100000x512 .f32)
    (w : FVec Ideal S512x100000 .f32) (b : FVec Ideal S100000 .f32)
    (h : fn (F := Ideal) emb lab cen w b = fun _ => 1#1) :
    (∀ j, ∃ r : ℝ, emb j = r) ∧ (∀ j, ∃ r : ℝ, cen j = r)
      ∧ (∀ e, 0 ≤ (lab e).toInt ∧ (lab e).toInt < 100000) := by
  have h0 := congrFun h ValueIdx.ix0
  dsimp only [fn, fn_part1] at h0
  obtain ⟨h5, hlt⟩ := IntOp.andi_eq_one.1 h0
  obtain ⟨h4, hge⟩ := IntOp.andi_eq_one.1 h5
  obtain ⟨h3, -⟩ := IntOp.andi_eq_one.1 h4
  obtain ⟨h2, -⟩ := IntOp.andi_eq_one.1 h3
  obtain ⟨hemb, hcen⟩ := IntOp.andi_eq_one.1 h2
  refine ⟨fun j => finite_at _ emb j (Host.reduce_andi_all _ _ _ _ _ hemb j),
    fun j => finite_at _ cen j (Host.reduce_andi_all _ _ _ _ _ hcen j), fun e => ⟨?_, ?_⟩⟩
  · exact toInt_nonneg_of_sge (Host.reduce_andi_all _ _ _ _ _ hge e)
  · exact toInt_lt_of_slt (Host.reduce_andi_all _ _ _ _ _ hlt e)

end Cert.PreDecode

end
-- ==== Proof.Bridge.lean ====
/-
  The kernel program's three results are the reference's, at the extended reals, under the precondition.

  * The gathered rows: both programs compute them by the same operations on the table and the labels.
  * The loss: the same operations on the embedding and the gathered rows.
  * The updated table: with every label in [0, 100000) each gathered row is a row of the table, so every entry of the
    scaled difference ½ · (row − embedding) is a real number; then the accumulating scatter of its negation is the
    one-hot form the kernel computes.
-/
import proofs.«427073_j26087631356629_1_alg».proof.Proof.RefRead
import proofs.«427073_j26087631356629_1_alg».proof.Proof.KHost
import proofs.«427073_j26087631356629_1_alg».proof.Proof.ScatterBridge
import proofs.«427073_j26087631356629_1_alg».proof.Proof.PreDecode

noncomputable section

namespace Cert.Bridge

open Idealize.ShloMosaic Idealize.ShloMosaic.ValueIdx

/-- The gathered rows are one term in the two programs. -/
theorem take_eq (cen : FVec Ideal ⟨2, ![100000, 512]⟩ .f32) (lab : IVec ⟨1, ![1024]⟩ 32) :
    Cert.ReferenceIdeal.Hand.takeT cen lab = Cert.KernelIdeal.Hand.takeK cen lab := rfl

/-- So is the loss. -/
theorem loss_eq (emb v0 : FVec Ideal ⟨2, ![1024, 512]⟩ .f32) :
    Cert.ReferenceIdeal.Hand.lossT emb v0 = Cert.KernelIdeal.Hand.lossK emb v0 := rfl

/-- The pattern 0x3F000000 denotes one half. -/
theorem half : Ideal.ofBits .f32 0x3F000000#32 = ((1 / 2 : ℝ) : EReal) := by
  simp [Ideal.ofBits, Ideal.ieee, -EReal.coe_mul]; norm_num

/-- With real embedding entries and real gathered entries the scaled difference is real, entry by entry. -/
theorem diffK_real (emb v0 : FVec Ideal ⟨2, ![1024, 512]⟩ .f32) (he : ∀ j, ∃ r : ℝ, emb j = r) (hv : ∀ j, ∃ r : ℝ, v0 j = r)
    (j : (⟨2, ![1024, 512]⟩ : Shape).Idx) : ∃ r : ℝ, Cert.KernelIdeal.Hand.diffK emb v0 j = r := by
  obtain ⟨a, ha⟩ := he j
  obtain ⟨b, hb⟩ := hv j
  refine ⟨(1 / 2) * (b - a), ?_⟩
  have e : Cert.KernelIdeal.Hand.diffK emb v0 j = Ideal.ofBits .f32 0x3F000000#32 * (v0 j - emb j) := rfl
  rw [e, half, ha, hb, ← EReal.coe_sub, ← EReal.coe_mul]

/-- With every label in range, every gathered entry is an entry of the table. -/
theorem takeK_real (cen : FVec Ideal ⟨2, ![100000, 512]⟩ .f32) (lab : IVec ⟨1, ![1024]⟩ 32)
    (hc : ∀ j, ∃ r : ℝ, cen j = r) (hlab : ∀ e, 0 ≤ (lab e).toInt ∧ (lab e).toInt < 100000)
    (j : (⟨2, ![1024, 512]⟩ : Shape).Idx) : ∃ r : ℝ, Cert.KernelIdeal.Hand.takeK cen lab j = r := by
  obtain ⟨b, f, rfl⟩ : ∃ (b : Fin 1024) (f : Fin 512), j = ix2 b f := ⟨j 0, j 1, eq_ix2 j⟩
  rw [Cert.KernelIdeal.Hand.takeK_apply cen lab hlab b f]
  exact hc _

/-- The updated table: the reference's scatter is the kernel's one-hot form. -/
theorem centers_eq (cen : FVec Ideal ⟨2, ![100000, 512]⟩ .f32) (lab : IVec ⟨1, ![1024]⟩ 32)
    (emb : FVec Ideal ⟨2, ![1024, 512]⟩ .f32) (labRow : IVec ⟨2, ![1, 1024]⟩ 32)
    (hrow : ∀ e : Fin 1024, labRow (ix2 (0 : Fin 1) e) = lab (ix1 e))
    (he : ∀ j, ∃ r : ℝ, emb j = r) (hc : ∀ j, ∃ r : ℝ, cen j = r)
    (hlab : ∀ e, 0 ≤ (lab e).toInt ∧ (lab e).toInt < 100000) :
    Cert.ReferenceIdeal.Hand.centersT cen lab emb (Cert.ReferenceIdeal.Hand.takeT cen lab)
      = Cert.Spec.newCentersK labRow (Cert.KernelIdeal.Hand.diffK emb (Cert.KernelIdeal.Hand.takeK cen lab)) cen := by
  rw [Cert.ReferenceIdeal.Hand.centersT_idx, take_eq]
  exact Cert.ScatterBridge.scatter_eq_onehot _ rfl rfl rfl rfl cen lab labRow (Cert.ReferenceIdeal.Hand.idxT lab)
    (Cert.KernelIdeal.Hand.diffK emb (Cert.KernelIdeal.Hand.takeK cen lab)) hrow
    (fun e => Cert.ReferenceIdeal.Hand.idxT_apply lab e (hlab (ix1 e)).1) (fun e => hlab (ix1 e))
    (diffK_real emb _ he (takeK_real cen lab hc hlab))

end Cert.Bridge

end
-- ==== Proof.lean ====
/-
  The certificate: a dense layer, a centre loss and a centre-table update, computed by two pallas_calls, against their
  jnp reference, over the extended reals.

  The two programs gather the same rows of the table and form the same loss from them. The dense layer is the same sum of
  products, the kernel's taken block by block over the columns. The table update is where they differ in form: the
  reference scatters the negated scaled differences into the rows the labels name, duplicates accumulating; the kernel
  subtracts from every table row the one-hot-weighted sum of the differences over the whole batch. With the labels in
  their range [0, 100000) and the embedding and the table finite the two agree. (A negative label is wrapped to a table
  row by the reference's scatter but matches no row number in the kernel's one-hot compare, so the statement carries the
  label range in its precondition.)
-/
import proofs.«427073_j26087631356629_1_alg».proof.Defs
import proofs.«427073_j26087631356629_1_alg».proof.Proof.Gen.Kernel
import proofs.«427073_j26087631356629_1_alg».proof.Proof.Gen.KernelIdeal
import proofs.«427073_j26087631356629_1_alg».proof.Proof.Gen.ReferenceIdeal
import proofs.«427073_j26087631356629_1_alg».proof.Proof.Gen.Pre_finite_inputs
import proofs.«427073_j26087631356629_1_alg».proof.Proof.KernelFrame
import proofs.«427073_j26087631356629_1_alg».proof.Proof.KIValues
import proofs.«427073_j26087631356629_1_alg».proof.Proof.RefRun
import proofs.«427073_j26087631356629_1_alg».proof.Proof.Bridge
import Idealize.ShloMosaic.Adequacy
import Idealize.ShloMosaic.Init

noncomputable section

namespace Cert.Proof

open Idealize.ShloMosaic Idealize.SL.Sem Idealize.ShloMosaic.ValueIdx

/-- The word-level kernel program runs to the end and leaves its arguments unchanged. -/
theorem frame_k : Cert.frame_Kernel := fun m ρ _ => Cert.Kernel.Hand.frame m ρ

/-- So does the idealized kernel program: its run with the results dropped. -/
theorem frame_ki : Cert.frame_KernelIdeal := fun m ρ _ =>
  (θ_run Cert.KernelIdeal.defs _ _).mono (fun _ h c => (h c).2.2.2) (Cert.KernelIdeal.Hand.run_values m ρ)

/-- And the idealized reference. -/
theorem frame_ri : Cert.frame_ReferenceIdeal := fun m ρ _ =>
  (θ_run Cert.ReferenceIdeal.defs _ _).mono (fun _ h c => (h c).2.2.2) (Cert.ReferenceIdeal.Hand.run m ρ)

/-- From memories that agree on the arguments the two idealized programs end with equal results. -/
theorem algebraic : Cert.algebraic_KernelIdeal_ReferenceIdeal := by
  intro m ρ m' ρ' hpre hagree
  refine ⟨_, _, _, Cert.KernelIdeal.Hand.run_values m ρ, ?_⟩
  refine (θ_run Cert.ReferenceIdeal.defs _ _).mono (fun r h c => ?_) (Cert.ReferenceIdeal.Hand.run m' ρ')
  obtain ⟨h19, h15, h11, ha0, ha1, ha2, ha3, ha4⟩ := h c
  obtain ⟨e0, e1, e2, e3, e4⟩ := hagree c
  obtain ⟨hemb, hcen, hlab⟩ := Cert.PreDecode.decode _ _ _ _ _ (hpre c)
  refine ⟨?_, ?_, ?_, ha0, ha1, ha2, ha3, ha4⟩
  · rw [h19, e0, e3, e4]
    exact Cert.ReferenceIdeal.Hand.logitsT_eq _ _ _
  · rw [h15, e0, e1, e2]
    exact Cert.Bridge.loss_eq _ _
  · rw [h11, e0, e1, e2]
    exact Cert.Bridge.centers_eq _ _ _ _ (Cert.KernelIdeal.Hand.labRow_apply m ρ c) hemb hcen hlab

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
